-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x16 : Shape := ⟨3, ![16, 64, 16]⟩
abbrev S128x3 : Shape := ⟨2, ![128, 3]⟩
abbrev S128 : Shape := ⟨1, ![128]⟩
abbrev S128x13 : Shape := ⟨2, ![128, 13]⟩
abbrev S256x128 : Shape := ⟨2, ![256, 128]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S512x2048 : Shape := ⟨2, ![512, 2048]⟩
abbrev S2048x512 : Shape := ⟨2, ![2048, 512]⟩
abbrev S2048 : Shape := ⟨1, ![2048]⟩
abbrev S_ : Shape := ⟨0, ![]⟩

class Facts : Prop where
  bcast_S_S16x64x16 : S_.BroadcastsInDim S16x64x16 (![] : Fin 0 → Fin S16x64x16.rank)
  reducesTo_S16x64x16_S_d0_1_2 : S16x64x16.ReducesTo [0, 1, 2] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S128x13 : S_.BroadcastsInDim S128x13 (![] : Fin 0 → Fin S128x13.rank)
  reducesTo_S128x13_S_d0_1 : S128x13.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S512x2048 .f32) (main_arg12 : FVec F S512 .f32) (main_arg13 : FVec F S2048x512 .f32) (main_arg14 : FVec F S2048 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S512x2048 .f32 := Host.absf main_arg11
  let main_cst_20 : FVec F S_ .f32 := constant S_ .f32 0x7F800000#32
  let main_v55 : FVec F S512x2048 .f32 := broadcastInDim S512x2048 ![] bcast_S_S512x2048 main_cst_20
  let main_v56 : IVec S512x2048 1 := cmpf .olt main_v54 main_v55
  let main_c_21 : IVec S_ 1 := constantI S_ 1 1#1
  let main_v57 : IVec S_ 1 := (fun x v => Host.reduce IntOp.andi x v reducesTo_S512x2048_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S2048x512 .f32 := Host.absf main_arg13
  let main_cst_24 : FVec F S_ .f32 := constant S_ .f32 0x7F800000#32
  let main_v65 : FVec F S2048x512 .f32 := broadcastInDim S2048x512 ![] bcast_S_S2048x512 main_cst_24
  let main_v66 : IVec S2048x512 1 := cmpf .olt main_v64 main_v65
  let main_c_25 : IVec S_ 1 := constantI S_ 1 1#1
  let main_v67 : IVec S_ 1 := (fun x v => Host.reduce IntOp.andi x v reducesTo_S2048x512_S_d0_1 h_S_) main_v66 main_c_25
  fn_part4 (F := F) main_arg14 main_v63 main_v67

def fn_part2 {F : FTy → Type} [FloatOps F] (main_arg7 : FVec F S512x256 .f32) (main_arg8 : FVec F S512 .f32) (main_arg9 : FVec F S1024x512 .f32) (main_arg10 : FVec F S1024 .f32) (main_arg11 : FVec F S512x2048 .f32) (main_arg12 : FVec F S512 .f32) (main_arg13 : FVec F S2048x512 .f32) (main_arg14 : FVec F S2048 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S128 .f32) (main_arg5 : FVec F S256x128 .f32) (main_arg6 : FVec F S256 .f32) (main_arg7 : FVec F S512x256 .f32) (main_arg8 : FVec F S512 .f32) (main_arg9 : FVec F S1024x512 .f32) (main_arg10 : FVec F S1024 .f32) (main_arg11 : FVec F S512x2048 .f32) (main_arg12 : FVec F S512 .f32) (main_arg13 : FVec F S2048x512 .f32) (main_arg14 : FVec F S2048 .f32) (main_v13 : IVec S_ 1) (main_v16 : IVec S128x13 1) : IVec S_ 1 :=
  let main_c_5 : IVec S_ 1 := constantI S_ 1 1#1
  let main_v17 : IVec S_ 1 := (fun x v => Host.reduce IntOp.andi x v reducesTo_S128x13_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x64x16 .f32) (main_arg1 : FVec F S128x3 .f32) (main_arg2 : FVec F S128 .f32) (main_arg3 : FVec F S128x13 .f32) (main_arg4 : FVec F S128 .f32) (main_arg5 : FVec F S256x128 .f32) (main_arg6 : FVec F S256 .f32) (main_arg7 : FVec F S512x256 .f32) (main_arg8 : FVec F S512 .f32) (main_arg9 : FVec F S1024x512 .f32) (main_arg10 : FVec F S1024 .f32) (main_arg11 : FVec F S512x2048 .f32) (main_arg12 : FVec F S512 .f32) (main_arg13 : FVec F S2048x512 .f32) (main_arg14 : FVec F S2048 .f32) : IVec S_ 1 :=
  let main_v0 : FVec F S16x64x16 .f32 := Host.absf main_arg0
  let main_cst : FVec F S_ .f32 := constant S_ .f32 0x7F800000#32
  let main_v1 : FVec F S16x64x16 .f32 := broadcastInDim S16x64x16 ![] bcast_S_S16x64x16 main_cst
  let main_v2 : IVec S16x64x16 1 := cmpf .olt main_v0 main_v1
  let main_c : IVec S_ 1 := constantI S_ 1 1#1
  let main_v3 : IVec S_ 1 := (fun x v => Host.reduce IntOp.andi x v reducesTo_S16x64x16_S_d0_1_2 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x13 .f32 := Host.absf main_arg3
  let main_cst_4 : FVec F S_ .f32 := constant S_ .f32 0x7F800000#32
  let main_v15 : FVec F S128x13 .f32 := broadcastInDim S128x13 ![] bcast_S_S128x13 main_cst_4
  let main_v16 : IVec S128x13 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x64x16 : Shape := ⟨3, ![16, 64, 16]⟩
abbrev S128x3 : Shape := ⟨2, ![128, 3]⟩
abbrev S128 : Shape := ⟨1, ![128]⟩
abbrev S128x13 : Shape := ⟨2, ![128, 13]⟩
abbrev S256x128 : Shape := ⟨2, ![256, 128]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S512x2048 : Shape := ⟨2, ![512, 2048]⟩
abbrev S2048x512 : Shape := ⟨2, ![2048, 512]⟩
abbrev S2048 : Shape := ⟨1, ![2048]⟩
abbrev S16x1x2048 : Shape := ⟨3, ![16, 1, 2048]⟩
abbrev S1x64x16 : Shape := ⟨3, ![1, 64, 16]⟩
abbrev S1x1x2048 : Shape := ⟨3, ![1, 1, 2048]⟩
abbrev S64x16 : Shape := ⟨2, ![64, 16]⟩
abbrev S64x3 : Shape := ⟨2, ![64, 3]⟩
abbrev S64x13 : Shape := ⟨2, ![64, 13]⟩
abbrev S3x128 : Shape := ⟨2, ![3, 128]⟩
abbrev S64x128 : Shape := ⟨2, ![64, 128]⟩
abbrev S1x128 : Shape := ⟨2, ![1, 128]⟩
abbrev S13x128 : Shape := ⟨2, ![13, 128]⟩
abbrev S128x256 : Shape := ⟨2, ![128, 256]⟩
abbrev S64x256 : Shape := ⟨2, ![64, 256]⟩
abbrev S1x256 : Shape := ⟨2, ![1, 256]⟩
abbrev S256x512 : Shape := ⟨2, ![256, 512]⟩
abbrev S64x512 : Shape := ⟨2, ![64, 512]⟩
abbrev S1x512 : Shape := ⟨2, ![1, 512]⟩
abbrev S512x1024 : Shape := ⟨2, ![512, 1024]⟩
abbrev S64x1024 : Shape := ⟨2, ![64, 1024]⟩
abbrev S1x1024 : Shape := ⟨2, ![1, 1024]⟩
abbrev S64x1x512 : Shape := ⟨3, ![64, 1, 512]⟩
abbrev S1x64x512 : Shape := ⟨3, ![1, 64, 512]⟩
abbrev S64x64x512 : Shape := ⟨3, ![64, 64, 512]⟩
abbrev S1x1x512 : Shape := ⟨3, ![1, 1, 512]⟩
abbrev S1x2048 : Shape := ⟨2, ![1, 2048]⟩
abbrev S16x2048 : Shape := ⟨2, ![16, 2048]⟩

abbrev nBuf : Space → Nat
  | .hbm => 24
  | .vmem => 18
  | .smem => 0
  | _ => 0

abbrev bufTy : (tb : Table) → Fin (tcTables nBuf tb) → BufTy
  | .hbm, ⟨0, _⟩ => ⟨S16x64x16, .f32⟩
  | .hbm, ⟨1, _⟩ => ⟨S128x3, .f32⟩
  | .hbm, ⟨2, _⟩ => ⟨S128, .f32⟩
  | .hbm, ⟨3, _⟩ => ⟨S128x13, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S1024x512, .f32⟩
  | .hbm, ⟨10, _⟩ => ⟨S1024, .f32⟩
  | .hbm, ⟨11, _⟩ => ⟨S512x2048, .f32⟩
  | .hbm, ⟨12, _⟩ => ⟨S512, .f32⟩
  | .hbm, ⟨13, _⟩ => ⟨S2048x512, .f32⟩
  | .hbm, ⟨14, _⟩ => ⟨S2048, .f32⟩
  | .hbm, ⟨15, _⟩ => ⟨S128x3, .bf16⟩
  | .hbm, ⟨16, _⟩ => ⟨S128x13, .bf16⟩
  | .hbm, ⟨17, _⟩ => ⟨S256x128, .bf16⟩
  | .hbm, ⟨18, _⟩ => ⟨S512x256, .bf16⟩
  | .hbm, ⟨19, _⟩ => ⟨S1024x512, .bf16⟩
  | .hbm, ⟨20, _⟩ => ⟨S512x2048, .bf16⟩
  | .hbm, ⟨21, _⟩ => ⟨S2048x512, .bf16⟩
  | .hbm, ⟨22, _⟩ => ⟨S16x1x2048, .f32⟩
  | .hbm, ⟨23, _⟩ => ⟨S16x2048, .f32⟩
  | .local _ .vmem, ⟨0, _⟩ => ⟨S1x64x16, .f32⟩
  | .local _ .vmem, ⟨1, _⟩ => ⟨S1x64x16, .f32⟩
  | .local _ .vmem, ⟨2, _⟩ => ⟨S128x3, .bf16⟩
  | .local _ .vmem, ⟨3, _⟩ => ⟨S128, .f32⟩
  | .local _ .vmem, ⟨4, _⟩ => ⟨S128x13, .bf16⟩
  | .local _ .vmem, ⟨5, _⟩ => ⟨S128, .f32⟩
  | .local _ .vmem, ⟨6, _⟩ => ⟨S256x128, .bf16⟩
  | .local _ .vmem, ⟨7, _⟩ => ⟨S256, .f32⟩
  | .local _ .vmem, ⟨8, _⟩ => ⟨S512x256, .bf16⟩
  | .local _ .vmem, ⟨9, _⟩ => ⟨S512, .f32⟩
  | .local _ .vmem, ⟨10, _⟩ => ⟨S1024x512, .bf16⟩
  | .local _ .vmem, ⟨11, _⟩ => ⟨S1024, .f32⟩
  | .local _ .vmem, ⟨12, _⟩ => ⟨S512x2048, .bf16⟩
  | .local _ .vmem, ⟨13, _⟩ => ⟨S512, .f32⟩
  | .local _ .vmem, ⟨14, _⟩ => ⟨S2048x512, .bf16⟩
  | .local _ .vmem, ⟨15, _⟩ => ⟨S2048, .f32⟩
  | .local _ .vmem, ⟨16, _⟩ => ⟨S1x1x2048, .f32⟩
  | .local _ .vmem, ⟨17, _⟩ => ⟨S1x1x2048, .f32⟩
  | _, _ => ⟨S16x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x13 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  slices_S64x16_o0_0_S64x3 : S64x16.Slices ![0, 0] S64x3
  slices_S64x16_o0_3_S64x13 : S64x16.Slices ![0, 3] S64x13
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S128x13_S128x13_0_0 : ∀ a, (![0, 0] : Fin 2 → Nat) a + S128x13.size a ≤ S128x13.size a
  h_S128x13 : 0 < S128x13.numel
  shapeCasts_S128x13_S128x13 : S128x13.ShapeCasts S128x13
  transposes_S128x3_p1_0_S3x128 : S128x3.Transposes [1, 0] S3x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  transposes_S128x13_p1_0_S13x128 : S128x13.Transposes [1, 0] S13x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x2048_o0_0_S512x1024 : S512x2048.Slices ![0, 0] S512x1024
  slices_S512x2048_o0_1024_S512x1024 : S512x2048.Slices ![0, 1024] S512x1024
  transposes_S512x1024_p1_0_S1024x512 : S512x1024.Transposes [1, 0] S1024x512
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  shapeCasts_S512_S1x1x512 : S512.ShapeCasts S1x1x512
  broadcasts_S1x1x512_S64x64x512 : S1x1x512.Broadcasts S64x64x512
  reduces_S64x64x512_S64x512 : S64x64x512.Reduces [1] S64x512
  reduces_S64x512_S512 : S64x512.Reduces [0] S512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  transposes_S2048x512_p1_0_S512x2048 : S2048x512.Transposes [1, 0] S512x2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S16x1x2048_S16x2048 : S16x1x2048.ShapeCasts S16x2048
  dot_S64x3_S3x128_S64x128_1_0_0_1_n_n_wf : DotDims.WF S64x3 S3x128 S64x128 [1] [0] [0] [1] [] []
  dot_S64x13_S13x128_S64x128_1_0_0_1_n_n_wf : DotDims.WF S64x13 S13x128 S64x128 [1] [0] [0] [1] [] []
  dot_S64x128_S128x256_S64x256_1_0_0_1_n_n_wf : DotDims.WF S64x128 S128x256 S64x256 [1] [0] [0] [1] [] []
  dot_S64x256_S256x512_S64x512_1_0_0_1_n_n_wf : DotDims.WF S64x256 S256x512 S64x512 [1] [0] [0] [1] [] []
  dot_S64x512_S512x1024_S64x1024_1_0_0_1_n_n_wf : DotDims.WF S64x512 S512x1024 S64x1024 [1] [0] [0] [1] [] []
  dot_S64x1024_S1024x512_S64x512_1_0_0_1_n_n_wf : DotDims.WF S64x1024 S1024x512 S64x512 [1] [0] [0] [1] [] []
  dot_S1x512_S512x2048_S1x2048_1_0_0_1_n_n_wf : DotDims.WF S1x512 S512x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16.size a ≤ S16x64x16.size a
  hwx0_0 : ∀ i : grid0.Coords, EltTy.bits .f32 = 32 ∨ (Rect.block (s := S16x64x16) S1x64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .bf16 = 32 ∨ (Rect.block (s := S128x3) S128x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x13.size a ≤ S128x13.size a
  hwx0_3 : ∀ i : grid0.Coords, EltTy.bits .bf16 = 32 ∨ (Rect.block (s := S128x13) S128x13.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S1024x512.size a
  hwx0_9 : ∀ i : grid0.Coords, EltTy.bits .bf16 = 32 ∨ (Rect.block (s := S1024x512) S1024x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x2048.size a ≤ S512x2048.size a
  hwx0_11 : ∀ i : grid0.Coords, EltTy.bits .bf16 = 32 ∨ (Rect.block (s := S512x2048) S512x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2048x512.size a ≤ S2048x512.size a
  hwx0_13 : ∀ i : grid0.Coords, EltTy.bits .bf16 = 32 ∨ (Rect.block (s := S2048x512) S2048x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2048.size a ≤ S2048.size a
  hwx0_14 : ∀ i : grid0.Coords, EltTy.bits .f32 = 32 ∨ (Rect.block (s := S2048) S2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x2048.size a ≤ S16x1x2048.size a
  hwx0_15 : ∀ i : grid0.Coords, EltTy.bits .f32 = 32 ∨ (Rect.block (s := S16x1x2048) S1x1x2048.size (cc0_transform_15 i) (hinb0_15 i)).WholeWords (EltTy.packing .f32)

variable [Facts₀]

def dot_S64x3_S3x128_S64x128_1_0_0_1_n_n : DotDims S64x3 S3x128 S64x128 where
  lhsContracting := [1]
  rhsContracting := [0]
  lhsNonContracting := [0]
  rhsNonContracting := [1]
  lhsBatch := []
  rhsBatch := []
  wf := dot_S64x3_S3x128_S64x128_1_0_0_1_n_n_wf
def dot_S64x13_S13x128_S64x128_1_0_0_1_n_n : DotDims S64x13 S13x128 S64x128 where
  lhsContracting := [1]
  rhsContracting := [0]
  lhsNonContracting := [0]
  rhsNonContracting := [1]
  lhsBatch := []
  rhsBatch := []
  wf := dot_S64x13_S13x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf

abbrev win0_0 : Pipeline.Window sig grid0 :=
  Pipeline.Window.ofSpec (Memref.whole main_arg0) S1x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S512x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S2048x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x1x2048.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16x64x16 : Shape := ⟨3, ![16, 64, 16]⟩
abbrev S128x3 : Shape := ⟨2, ![128, 3]⟩
abbrev S128 : Shape := ⟨1, ![128]⟩
abbrev S128x13 : Shape := ⟨2, ![128, 13]⟩
abbrev S256x128 : Shape := ⟨2, ![256, 128]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S512x2048 : Shape := ⟨2, ![512, 2048]⟩
abbrev S2048x512 : Shape := ⟨2, ![2048, 512]⟩
abbrev S2048 : Shape := ⟨1, ![2048]⟩
abbrev S16x64x3 : Shape := ⟨3, ![16, 64, 3]⟩
abbrev S16x64x13 : Shape := ⟨3, ![16, 64, 13]⟩
abbrev S16x64x128 : Shape := ⟨3, ![16, 64, 128]⟩
abbrev S1x1x128 : Shape := ⟨3, ![1, 1, 128]⟩
abbrev S_ : Shape := ⟨0, ![]⟩
abbrev S16x64x256 : Shape := ⟨3, ![16, 64, 256]⟩
abbrev S1x1x256 : Shape := ⟨3, ![1, 1, 256]⟩
abbrev S16x64x512 : Shape := ⟨3, ![16, 64, 512]⟩
abbrev S1x1x512 : Shape := ⟨3, ![1, 1, 512]⟩
abbrev S16x64x1024 : Shape := ⟨3, ![16, 64, 1024]⟩
abbrev S1x1x1024 : Shape := ⟨3, ![1, 1, 1024]⟩
abbrev S512x1024 : Shape := ⟨2, ![512, 1024]⟩
abbrev S16x64x1x512 : Shape := ⟨4, ![16, 64, 1, 512]⟩
abbrev S16x1x64x512 : Shape := ⟨4, ![16, 1, 64, 512]⟩
abbrev S16x64x64x512 : Shape := ⟨4, ![16, 64, 64, 512]⟩
abbrev S1x1x1x512 : Shape := ⟨4, ![1, 1, 1, 512]⟩
abbrev S16x512 : Shape := ⟨2, ![16, 512]⟩
abbrev S16x2048 : Shape := ⟨2, ![16, 2048]⟩
abbrev S1x2048 : Shape := ⟨2, ![1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16x64x16, .f32⟩
  | .hbm, ⟨1, _⟩ => ⟨S128x3, .f32⟩
  | .hbm, ⟨2, _⟩ => ⟨S128, .f32⟩
  | .hbm, ⟨3, _⟩ => ⟨S128x13, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S1024x512, .f32⟩
  | .hbm, ⟨10, _⟩ => ⟨S1024, .f32⟩
  | .hbm, ⟨11, _⟩ => ⟨S512x2048, .f32⟩
  | .hbm, ⟨12, _⟩ => ⟨S512, .f32⟩
  | .hbm, ⟨13, _⟩ => ⟨S2048x512, .f32⟩
  | .hbm, ⟨14, _⟩ => ⟨S2048, .f32⟩
  | .hbm, ⟨15, _⟩ => ⟨S16x64x3, .f32⟩
  | .hbm, ⟨16, _⟩ => ⟨S16x64x13, .f32⟩
  | .hbm, ⟨17, _⟩ => ⟨S16x64x128, .f32⟩
  | .hbm, ⟨18, _⟩ => ⟨S1x1x128, .f32⟩
  | .hbm, ⟨19, _⟩ => ⟨S16x64x128, .f32⟩
  | .hbm, ⟨20, _⟩ => ⟨S16x64x128, .f32⟩
  | .hbm, ⟨21, _⟩ => ⟨S_, .f32⟩
  | .hbm, ⟨22, _⟩ => ⟨S16x64x128, .f32⟩
  | .hbm, ⟨23, _⟩ => ⟨S16x64x128, .f32⟩
  | .hbm, ⟨24, _⟩ => ⟨S16x64x128, .f32⟩
  | .hbm, ⟨25, _⟩ => ⟨S1x1x128, .f32⟩
  | .hbm, ⟨26, _⟩ => ⟨S16x64x128, .f32⟩
  | .hbm, ⟨27, _⟩ => ⟨S16x64x128, .f32⟩
  | .hbm, ⟨28, _⟩ => ⟨S_, .f32⟩
  | .hbm, ⟨29, _⟩ => ⟨S16x64x128, .f32⟩
  | .hbm, ⟨30, _⟩ => ⟨S16x64x128, .f32⟩
  | .hbm, ⟨31, _⟩ => ⟨S16x64x128, .f32⟩
  | .hbm, ⟨32, _⟩ => ⟨S16x64x256, .f32⟩
  | .hbm, ⟨33, _⟩ => ⟨S1x1x256, .f32⟩
  | .hbm, ⟨34, _⟩ => ⟨S16x64x256, .f32⟩
  | .hbm, ⟨35, _⟩ => ⟨S16x64x256, .f32⟩
  | .hbm, ⟨36, _⟩ => ⟨S_, .f32⟩
  | .hbm, ⟨37, _⟩ => ⟨S16x64x256, .f32⟩
  | .hbm, ⟨38, _⟩ => ⟨S16x64x256, .f32⟩
  | .hbm, ⟨39, _⟩ => ⟨S16x64x512, .f32⟩
  | .hbm, ⟨40, _⟩ => ⟨S1x1x512, .f32⟩
  | .hbm, ⟨41, _⟩ => ⟨S16x64x512, .f32⟩
  | .hbm, ⟨42, _⟩ => ⟨S16x64x512, .f32⟩
  | .hbm, ⟨43, _⟩ => ⟨S_, .f32⟩
  | .hbm, ⟨44, _⟩ => ⟨S16x64x512, .f32⟩
  | .hbm, ⟨45, _⟩ => ⟨S16x64x512, .f32⟩
  | .hbm, ⟨46, _⟩ => ⟨S16x64x1024, .f32⟩
  | .hbm, ⟨47, _⟩ => ⟨S1x1x1024, .f32⟩
  | .hbm, ⟨48, _⟩ => ⟨S16x64x1024, .f32⟩
  | .hbm, ⟨49, _⟩ => ⟨S16x64x1024, .f32⟩
  | .hbm, ⟨50, _⟩ => ⟨S_, .f32⟩
  | .hbm, ⟨51, _⟩ => ⟨S16x64x1024, .f32⟩
  | .hbm, ⟨52, _⟩ => ⟨S16x64x1024, .f32⟩
  | .hbm, ⟨53, _⟩ => ⟨S512x1024, .f32⟩
  | .hbm, ⟨54, _⟩ => ⟨S512x1024, .f32⟩
  | .hbm, ⟨55, _⟩ => ⟨S16x64x512, .f32⟩
  | .hbm, ⟨56, _⟩ => ⟨S16x64x512, .f32⟩
  | .hbm, ⟨57, _⟩ => ⟨S16x64x1x512, .f32⟩
  | .hbm, ⟨58, _⟩ => ⟨S16x1x64x512, .f32⟩
  | .hbm, ⟨59, _⟩ => ⟨S16x64x64x512, .f32⟩
  | .hbm, ⟨60, _⟩ => ⟨S16x64x64x512, .f32⟩
  | .hbm, ⟨61, _⟩ => ⟨S16x64x64x512, .f32⟩
  | .hbm, ⟨62, _⟩ => ⟨S1x1x1x512, .f32⟩
  | .hbm, ⟨63, _⟩ => ⟨S16x64x64x512, .f32⟩
  | .hbm, ⟨64, _⟩ => ⟨S16x64x64x512, .f32⟩
  | .hbm, ⟨65, _⟩ => ⟨S_, .f32⟩
  | .hbm, ⟨66, _⟩ => ⟨S16x64x64x512, .f32⟩
  | .hbm, ⟨67, _⟩ => ⟨S16x64x64x512, .f32⟩
  | .hbm, ⟨68, _⟩ => ⟨S_, .f32⟩
  | .hbm, ⟨69, _⟩ => ⟨S16x512, .f32⟩
  | .hbm, ⟨70, _⟩ => ⟨S_, .f32⟩
  | .hbm, ⟨71, _⟩ => ⟨S16x512, .f32⟩
  | .hbm, ⟨72, _⟩ => ⟨S16x512, .f32⟩
  | .hbm, ⟨73, _⟩ => ⟨S16x2048, .f32⟩
  | .hbm, ⟨74, _⟩ => ⟨S1x2048, .f32⟩
  | .hbm, ⟨75, _⟩ => ⟨S16x2048, .f32⟩
  | .hbm, ⟨76, _⟩ => ⟨S16x2048, .f32⟩
  | _, _ => ⟨S16x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call3_cst : Ref sig .tc := ⟨.hbm, 43, rfl⟩
abbrev main_call3_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call4_cst : Ref sig .tc := ⟨.hbm, 50, rfl⟩
abbrev main_call4_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call5_cst : Ref sig .tc := ⟨.hbm, 65, rfl⟩
abbrev main_call5_v0 : Ref sig .tc := ⟨.hbm, 66, rfl⟩
abbrev main_v40 : Ref sig .tc := ⟨.hbm, 67, rfl⟩
abbrev main_cst : Ref sig .tc := ⟨.hbm, 68, rfl⟩
abbrev main_v41 : Ref sig .tc := ⟨.hbm, 69, rfl⟩
abbrev main_cst_0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩

abbrev nD : Nat := 1
abbrev τ : Topo := Topo.v7x

variable {F : FTy → Type} [FloatOps F]

class Facts₀ : Prop where
  slices_S16x64x16_S16x64x3_0_0_0 : S16x64x16.Slices ![0, 0, 0] S16x64x3
  slices_S16x64x16_S16x64x13_0_0_3 : S16x64x16.Slices ![0, 0, 3] S16x64x13
  bcast_S128_S1x1x128_2 : S128.BroadcastsInDim S1x1x128 (![2] : Fin 1 → Fin S1x1x128.rank)
  bcast_S1x1x128_S16x64x128_0_1_2 : S1x1x128.BroadcastsInDim S16x64x128 (![0, 1, 2] : Fin 3 → Fin S16x64x128.rank)
  bcast_S_S16x64x128 : S_.BroadcastsInDim S16x64x128 (![] : Fin 0 → Fin S16x64x128.rank)
  bcast_S256_S1x1x256_2 : S256.BroadcastsInDim S1x1x256 (![2] : Fin 1 → Fin S1x1x256.rank)
  bcast_S1x1x256_S16x64x256_0_1_2 : S1x1x256.BroadcastsInDim S16x64x256 (![0, 1, 2] : Fin 3 → Fin S16x64x256.rank)
  bcast_S_S16x64x256 : S_.BroadcastsInDim S16x64x256 (![] : Fin 0 → Fin S16x64x256.rank)
  bcast_S512_S1x1x512_2 : S512.BroadcastsInDim S1x1x512 (![2] : Fin 1 → Fin S1x1x512.rank)
  bcast_S1x1x512_S16x64x512_0_1_2 : S1x1x512.BroadcastsInDim S16x64x512 (![0, 1, 2] : Fin 3 → Fin S16x64x512.rank)
  bcast_S_S16x64x512 : S_.BroadcastsInDim S16x64x512 (![] : Fin 0 → Fin S16x64x512.rank)
  bcast_S1024_S1x1x1024_2 : S1024.BroadcastsInDim S1x1x1024 (![2] : Fin 1 → Fin S1x1x1024.rank)
  bcast_S1x1x1024_S16x64x1024_0_1_2 : S1x1x1024.BroadcastsInDim S16x64x1024 (![0, 1, 2] : Fin 3 → Fin S16x64x1024.rank)
  bcast_S_S16x64x1024 : S_.BroadcastsInDim S16x64x1024 (![] : Fin 0 → Fin S16x64x1024.rank)
  slices_S512x2048_S512x1024_0_0 : S512x2048.Slices ![0, 0] S512x1024
  slices_S512x2048_S512x1024_0_1024 : S512x2048.Slices ![0, 1024] S512x1024
  bcast_S16x64x512_S16x64x1x512_0_1_3 : S16x64x512.BroadcastsInDim S16x64x1x512 (![0, 1, 3] : Fin 3 → Fin S16x64x1x512.rank)
  bcast_S16x64x512_S16x1x64x512_0_2_3 : S16x64x512.BroadcastsInDim S16x1x64x512 (![0, 2, 3] : Fin 3 → Fin S16x1x64x512.rank)
  bcast_S16x64x1x512_S16x64x64x512_0_1_2_3 : S16x64x1x512.BroadcastsInDim S16x64x64x512 (![0, 1, 2, 3] : Fin 4 → Fin S16x64x64x512.rank)
  bcast_S16x1x64x512_S16x64x64x512_0_1_2_3 : S16x1x64x512.BroadcastsInDim S16x64x64x512 (![0, 1, 2, 3] : Fin 4 → Fin S16x64x64x512.rank)
  bcast_S512_S1x1x1x512_3 : S512.BroadcastsInDim S1x1x1x512 (![3] : Fin 1 → Fin S1x1x1x512.rank)
  bcast_S1x1x1x512_S16x64x64x512_0_1_2_3 : S1x1x1x512.BroadcastsInDim S16x64x64x512 (![0, 1, 2, 3] : Fin 4 → Fin S16x64x64x512.rank)
  bcast_S_S16x64x64x512 : S_.BroadcastsInDim S16x64x64x512 (![] : Fin 0 → Fin S16x64x64x512.rank)
  reducesTo_S16x64x64x512_S16x512_d1_2 : S16x64x64x512.ReducesTo [1, 2] S16x512
  h_S_ : 0 < S_.numel
  bcast_S_S16x512 : S_.BroadcastsInDim S16x512 (![] : Fin 0 → Fin S16x512.rank)
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  dot_S16x64x3_S128x3_S16x64x128_2_1_01_0_n_n_wf : DotDims.WF S16x64x3 S128x3 S16x64x128 [2] [1] [0, 1] [0] [] []
  dot_S16x64x13_S128x13_S16x64x128_2_1_01_0_n_n_wf : DotDims.WF S16x64x13 S128x13 S16x64x128 [2] [1] [0, 1] [0] [] []
  dot_S16x64x128_S256x128_S16x64x256_2_1_01_0_n_n_wf : DotDims.WF S16x64x128 S256x128 S16x64x256 [2] [1] [0, 1] [0] [] []
  dot_S16x64x256_S512x256_S16x64x512_2_1_01_0_n_n_wf : DotDims.WF S16x64x256 S512x256 S16x64x512 [2] [1] [0, 1] [0] [] []
  dot_S16x64x512_S1024x512_S16x64x1024_2_1_01_0_n_n_wf : DotDims.WF S16x64x512 S1024x512 S16x64x1024 [2] [1] [0, 1] [0] [] []
  dot_S16x64x1024_S512x1024_S16x64x512_2_1_01_0_n_n_wf : DotDims.WF S16x64x1024 S512x1024 S16x64x512 [2] [1] [0, 1] [0] [] []
  dot_S16x512_S2048x512_S16x2048_1_1_0_0_n_n_wf : DotDims.WF S16x512 S2048x512 S16x2048 [1] [1] [0] [0] [] []

variable [Facts₀]

def dot_S16x64x3_S128x3_S16x64x128_2_1_01_0_n_n : DotDims S16x64x3 S128x3 S16x64x128 where
  lhsContracting := [2]
  rhsContracting := [1]
  lhsNonContracting := [0, 1]
  rhsNonContracting := [0]
  lhsBatch := []
  rhsBatch := []
  wf := dot_S16x64x3_S128x3_S16x64x128_2_1_01_0_n_n_wf
def dot_S16x64x13_S128x13_S16x64x128_2_1_01_0_n_n : DotDims S16x64x13 S128x13 S16x64x128 where
  lhsContracting := [2]
  rhsContracting := [1]
  lhsNonContracting := [0, 1]
  rhsNonContracting := [0]
  lhsBatch := []
  rhsBatch := []
  wf := dot_S16x64x13_S128x13_S16x64x128_2_1_01_0_n_n_wf
def dot_S16x64x128_S256x128_S16x64x256_2_1_01_0_n_n : DotDims S16x64x128 S256x128 S16x64x256 where
  lhsContracting := [2]
  rhsContracting := [1]
  lhsNonContracting := [0, 1]
  rhsNonContracting := [0]
  lhsBatch := []
  rhsBatch := []
  wf := dot_S16x64x128_S256x128_S16x64x256_2_1_01_0_n_n_wf
def dot_S16x64x256_S512x256_S16x64x512_2_1_01_0_n_n : DotDims S16x64x256 S512x256 S16x64x512 where
  lhsContracting := [2]
  rhsContracting := [1]
  lhsNonContracting := [0, 1]
  rhsNonContracting := [0]
  lhsBatch := []
  rhsBatch := []
  wf := dot_S16x64x256_S512x256_S16x64x512_2_1_01_0_n_n_wf
def dot_S16x64x512_S1024x512_S16x64x1024_2_1_01_0_n_n : DotDims S16x64x512 S1024x512 S16x64x1024 where
  lhsContracting := [2]
  rhsContracting := [1]
  lhsNonContracting := [0, 1]
  rhsNonContracting := [0]
  lhsBatch := []
  rhsBatch := []
  wf := dot_S16x64x512_S1024x512_S16x64x1024_2_1_01_0_n_n_wf
def dot_S16x64x1024_S512x1024_S16x64x512_2_1_01_0_n_n : DotDims S16x64x1024 S512x1024 S16x64x512 where
  lhsContracting := [2]
  rhsContracting := [1]
  lhsNonContracting := [0, 1]
  rhsNonContracting := [0]
  lhsBatch := []
  rhsBatch := []
  wf := dot_S16x64x1024_S512x1024_S16x64x512_2_1_01_0_n_n_wf
def dot_S16x512_S2048x512_S16x2048_1_1_0_0_n_n : DotDims S16x512 S2048x512 S16x2048 where
  lhsContracting := [1]
  rhsContracting := [1]
  lhsNonContracting := [0]
  rhsNonContracting := [0]
  lhsBatch := []
  rhsBatch := []
  wf := dot_S16x512_S2048x512_S16x2048_1_1_0_0_n_n_wf

class Facts : Prop extends Facts₀ where

variable [Facts]
-- ==== Proof.Spec.lean ====
/-
  The function both programs compute, on the extended reals, for ONE batch element: 64 points of 16 coordinates each.

  A point p is embedded by two rectified linear layers, one on its first 3 coordinates and one on its last 13, whose
  outputs are added; three more rectified linear layers refine the embedding to 1024 features. For an ordered pair of
  points (i, j) the pairwise layer adds the second half of its weight applied to point i's features, the first half applied
  to point j's features, and its bias, and rectifies. The rectified values are summed over all 64 × 64 ordered pairs,
  divided by 4096, and sent through one last linear layer.

  A linear layer's output is written as an inner product with the weight's row plus the bias entry, and the pooled sum as
  a sum over i of a sum over j. Nothing here depends on a program.
-/
import Idealize.ShloMosaic.PureOps.Ideal.Laws
import Idealize.ShloMosaic.Lib.ValueIdx

noncomputable section

namespace Cert.PairPool

open Idealize.ShloMosaic Idealize.ShloMosaic.ValueIdx

/-- The weights and biases, each read by its coordinates: a weight is stored output-major, entry (o, k) multiplying
    input coordinate k in output o. -/
structure Weights where
  e1w : Fin 128 → Fin 3 → EReal
  e1b : Fin 128 → EReal
  e2w : Fin 128 → Fin 13 → EReal
  e2b : Fin 128 → EReal
  r1w : Fin 256 → Fin 128 → EReal
  r1b : Fin 256 → EReal
  r2w : Fin 512 → Fin 256 → EReal
  r2b : Fin 512 → EReal
  r3w : Fin 1024 → Fin 512 → EReal
  r3b : Fin 1024 → EReal
  w1 : Fin 512 → Fin 2048 → EReal
  b1 : Fin 512 → EReal
  w2 : Fin 2048 → Fin 512 → EReal
  b2 : Fin 2048 → EReal

/-- The weights read off fourteen arrays of the programs' shapes. -/
def weightsOf (a1 : (⟨2, ![128, 3]⟩ : Shape).Idx → EReal) (a2 : (⟨1, ![128]⟩ : Shape).Idx → EReal)
    (a3 : (⟨2, ![128, 13]⟩ : Shape).Idx → EReal) (a4 : (⟨1, ![128]⟩ : Shape).Idx → EReal)
    (a5 : (⟨2, ![256, 128]⟩ : Shape).Idx → EReal) (a6 : (⟨1, ![256]⟩ : Shape).Idx → EReal)
    (a7 : (⟨2, ![512, 256]⟩ : Shape).Idx → EReal) (a8 : (⟨1, ![512]⟩ : Shape).Idx → EReal)
    (a9 : (⟨2, ![1024, 512]⟩ : Shape).Idx → EReal) (a10 : (⟨1, ![1024]⟩ : Shape).Idx → EReal)
    (a11 : (⟨2, ![512, 2048]⟩ : Shape).Idx → EReal) (a12 : (⟨1, ![512]⟩ : Shape).Idx → EReal)
    (a13 : (⟨2, ![2048, 512]⟩ : Shape).Idx → EReal) (a14 : (⟨1, ![2048]⟩ : Shape).Idx → EReal) : Weights where
  e1w o k := a1 (ix2 o k)
  e1b o := a2 (ix1 o)
  e2w o k := a3 (ix2 o k)
  e2b o := a4 (ix1 o)
  r1w o k := a5 (ix2 o k)
  r1b o := a6 (ix1 o)
  r2w o k := a7 (ix2 o k)
  r2b o := a8 (ix1 o)
  r3w o k := a9 (ix2 o k)
  r3b o := a10 (ix1 o)
  w1 o k := a11 (ix2 o k)
  b1 o := a12 (ix1 o)
  w2 o k := a13 (ix2 o k)
  b2 o := a14 (ix1 o)

/-- The rectifier: the larger of the value and zero. -/
def relu (v : EReal) : EReal := max v 0

/-- One output of a linear layer: the inner product of the input with the weight's row, plus the bias entry. -/
def lin {K : Nat} (x w : Fin K → EReal) (b : EReal) : EReal := (∑ k : Fin K, x k * w k) + b

variable (W : Weights)

/-- The embedding of one point: its first 3 coordinates through one rectified linear layer, its last 13 through
    another, the two outputs added. -/
def embed (p : Fin 16 → EReal) (o : Fin 128) : EReal :=
  relu (lin (fun c : Fin 3 => p ⟨c.val, by have := c.isLt; omega⟩) (W.e1w o) (W.e1b o))
    + relu (lin (fun c : Fin 13 => p ⟨3 + c.val, by have := c.isLt; omega⟩) (W.e2w o) (W.e2b o))

/-- The three refining layers, 128 → 256 → 512 → 1024, each a rectified linear layer of the row before it. -/
def layer1 (e : Fin 128 → EReal) (o : Fin 256) : EReal := relu (lin e (W.r1w o) (W.r1b o))
def layer2 (h : Fin 256 → EReal) (o : Fin 512) : EReal := relu (lin h (W.r2w o) (W.r2b o))
def layer3 (h : Fin 512 → EReal) (o : Fin 1024) : EReal := relu (lin h (W.r3w o) (W.r3b o))

/-- A point's row after the first refining layer, and its 1024 features after all three. -/
def hidden1 (p : Fin 16 → EReal) : Fin 256 → EReal := layer1 W (embed W p)
def featOf (h : Fin 256 → EReal) : Fin 1024 → EReal := layer3 W (layer2 W h)
def feat (p : Fin 16 → EReal) : Fin 1024 → EReal := featOf W (hidden1 W p)

/-- The pairwise layer's weight has 2048 input coordinates: its first 1024 meet the features of the pair's second
    point, its last 1024 those of the pair's first point. -/
def partA (f : Fin 1024 → EReal) (o : Fin 512) : EReal :=
  ∑ c : Fin 1024, f c * W.w1 o ⟨c.val, by have := c.isLt; omega⟩
def partB (f : Fin 1024 → EReal) (o : Fin 512) : EReal :=
  ∑ c : Fin 1024, f c * W.w1 o ⟨1024 + c.val, by have := c.isLt; omega⟩

/-- The rectified pairwise activation of an ordered pair of points with features fi, fj. -/
def pairAct (fi fj : Fin 1024 → EReal) (o : Fin 512) : EReal := relu (partB W fi o + partA W fj o + W.b1 o)

/-- The activations summed over all ordered pairs of the 64 points: over the first point, then over the second. -/
def pairSum (fs : Fin 64 → Fin 1024 → EReal) (o : Fin 512) : EReal :=
  ∑ i : Fin 64, ∑ j : Fin 64, pairAct W (fs i) (fs j) o

/-- The sum divided by 4096 (the word `0x45800000`), and the last linear layer on the pooled vector. -/
def pooled (fs : Fin 64 → Fin 1024 → EReal) (o : Fin 512) : EReal :=
  Ideal.div (pairSum W fs o) (Ideal.ofBits .f32 0x45800000#32)
def head (fs : Fin 64 → Fin 1024 → EReal) (o : Fin 2048) : EReal := lin (pooled W fs) (W.w2 o) (W.b2 o)

/-- The network on one batch element's 64 points: the result's row for that element. -/
def out (xs : Fin 64 → Fin 16 → EReal) (o : Fin 2048) : EReal := head W (fun n => feat W (xs n)) o

end Cert.PairPool

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KernelNetLayer.lean ====
/-
  The pieces of the kernel's body, each read at an output index over the extended reals, for any extents.

  * A linear layer as the body computes it: the block product of the input with the TRANSPOSED weight (the weight
    is stored output-major) into the zero accumulator, plus the bias vector laid along every row, rectified against
    a broadcast zero. Read at (r, c) it is the specification's rectified linear form of row r of the input against
    row c of the weight and entry c of the bias.
  * The three ways the pairwise stage lays a smaller array out over a [a, b, c] box: a [a, c] matrix along the middle
    axis, a [b, c] matrix along the first axis, a [c] vector along both.
  * A sum over the middle axis of a box and over the first axis of a matrix, as sums over that coordinate.
-/
import Idealize.ShloMosaic.PureOps.Ideal.Laws
import Idealize.ShloMosaic.Lib.ValueIdx
import Idealize.ShloMosaic.Lib.ValueLayout
import Idealize.ShloMosaic.Lib.Pipeline.Value
import proofs.«157928_j21328807592435_1_alg».proof.Proof.LibDotSum
import proofs.«157928_j21328807592435_1_alg».proof.Proof.Spec

noncomputable section

namespace Cert.KernelIdeal.Net

open Idealize.ShloMosaic Idealize.ShloMosaic.ValueIdx

variable {M K N : Nat}

/-! ## A product against a transposed weight, and the rectified linear layer -/

/-- The block product of A with the transpose of an output-major weight w, into the zero accumulator, at (r, c): the
    inner product of row r of A with row c of w. -/
theorem matmul_transpose_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (w : FVec Ideal ⟨2, ![N, K]⟩ φ₂)
    (ht : (⟨2, ![N, K]⟩ : Shape).Transposes [1, 0] ⟨2, ![K, N]⟩) (r : Fin M) (c : Fin N) :
    matmul d prec A (transpose ⟨2, ![K, N]⟩ [1, 0] w ht) (constant ⟨2, ![M, N]⟩ .f32 0x00000000#32) (ix2 r c)
      = ∑ k : Fin K, A (ix2 r k) * w (ix2 c k) := by
  rw [Cert.Lib.matmul_rc_apply d hlc hrc hln hrn hlb hrb]
  exact Finset.sum_congr rfl fun k _ => by rw [transpose_ix2_apply]

/-- The body's rectified linear layer at (r, c): the weight block is cast to its own shape and transposed, the bias
    vector cast to one row and broadcast over the rows, the maximum taken against a broadcast zero word. -/
theorem layer_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (w : FVec Ideal ⟨2, ![N, K]⟩ φ₂) (b : FVec Ideal ⟨1, ![N]⟩ .f32)
    (hs : (⟨2, ![N, K]⟩ : Shape).ShapeCasts ⟨2, ![N, K]⟩)
    (ht : (⟨2, ![N, K]⟩ : Shape).Transposes [1, 0] ⟨2, ![K, N]⟩)
    (hc : (⟨1, ![N]⟩ : Shape).ShapeCasts ⟨2, ![1, N]⟩)
    (hb : (⟨2, ![1, N]⟩ : Shape).Broadcasts ⟨2, ![M, N]⟩) (r : Fin M) (c : Fin N) :
    maximumf
        (addf (matmul d prec A (transpose ⟨2, ![K, N]⟩ [1, 0] (shapeCast ⟨2, ![N, K]⟩ w hs) ht)
            (constant ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 r c)
      = Cert.PairPool.relu (Cert.PairPool.lin (fun k => A (ix2 r k)) (fun k => w (ix2 c k)) (b (ix1 c))) := by
  rw [maximumf_apply, addf_apply, broadcast_apply, shapeCast_self w hs,
    matmul_transpose_apply d hlc hrc hln hrn hlb hrb, broadcastTo_1b_ab_apply, shapeCast_a_1a_apply]
  show max _ (Ideal.ofBits .f32 0x00000000#32) = _
  rw [Ideal.ofBits_zero_f32]
  rfl

/-- The specification's linear form depends on its input only through the input's entries. -/
theorem lin_congr {x x' : Fin K → EReal} (h : ∀ k, x k = x' k) (w : Fin K → EReal) (b : EReal) :
    Cert.PairPool.lin x w b = Cert.PairPool.lin x' w b := by
  rw [show x = x' from funext h]

/-! ## A smaller array laid out over a box -/

variable {α : Type} {a b c : Nat}

/-- An [a, c] matrix cast to [a, 1, c] and broadcast over the middle axis reads, at (i, j, k), the matrix at (i, k). -/
theorem broadcast_rows_apply (x : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x hc) hb (ix3 i j k) = x (ix2 i k) := by
  refine (broadcastTo_apply _ hb (ix3 i j k) (ix3 i (0 : Fin 1) k) fun ax => ?_).trans
    (shapeCast_apply x hc _ (ix2 i k) ?_)
  · match ax with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl
  · rw [Shape.rowMajor_val_two, Shape.rowMajor_val_three]
    show i.val * c + k.val = (i.val * 1 + 0) * c + k.val
    rw [Nat.mul_one, Nat.add_zero]

/-- A [b, c] matrix cast to [1, b, c] and broadcast over the first axis reads, at (i, j, k), the matrix at (j, k). -/
theorem broadcast_cols_apply (x : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (i : Fin a) (j : Fin b) (k : Fin c) :
    broadcastTo ⟨3, ![a, b, c]⟩ (shapeCast ⟨3, ![1, b, c]⟩ x hc) hb (ix3 i j k) = x (ix2 j k) := by
  refine (broadcastTo_apply _ hb (ix3 i j k) (ix3 (0 : Fin 1) j k) fun ax => ?_).trans
    (shapeCast_ab_1ab_apply x hc _ j k)
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A [c] vector cast to [1, 1, c] and broadcast over the first two axes reads, at (i, j, k), the vector at k. -/
theorem broadcast_lane_apply (x : (⟨1, ![c]⟩ : Shape).Idx → α)
    (hc : (⟨1, ![c]⟩ : Shape).ShapeCasts ⟨3, ![1, 1, c]⟩)
    (hb : (⟨3, ![1, 1, c]⟩ : Shape).Broadcasts ⟨3, ![a, b, c]⟩) (i : Fin a) (j : Fin b) (k : Fin c) :
    broadcastTo ⟨3, ![a, b, c]⟩ (shapeCast ⟨3, ![1, 1, c]⟩ x hc) hb (ix3 i j k) = x (ix1 k) := by
  refine (broadcastTo_apply _ hb (ix3 i j k) (ix3 (0 : Fin 1) (0 : Fin 1) k) fun ax => ?_).trans
    (shapeCast_apply x hc _ (ix1 k) ?_)
  · match ax with
    | ⟨0, _⟩ => rfl
    | ⟨1, _⟩ => rfl
    | ⟨2, _⟩ =>
      show k.val = if c = 1 then 0 else k.val
      split
      · have := k.isLt; omega
      · rfl
  · rw [Shape.rowMajor_val_one, Shape.rowMajor_val_three]
    show k.val = (0 * 1 + 0) * c + k.val
    rw [Nat.zero_mul, Nat.zero_add]

/-! ## Sums over one axis -/

/-- The sum of an [a, b, c] box over its middle axis, at (i, k): the sum over j of the box at (i, j, k). -/
theorem sum_middle_apply (src : FVec Ideal ⟨3, ![a, b, c]⟩ .f32)
    (h : (⟨3, ![a, b, c]⟩ : Shape).Reduces [1] ⟨2, ![a, c]⟩) (hφ : FKind.Formats .f32)
    (hacc : (0x00000000#32 : BitVec FTy.f32.bits) = FKind.add.neutral .f32 hφ) (i : Fin a) (k : Fin c) :
    multiReduction (F := Ideal) .add [1] ⟨2, ![a, c]⟩ src 0x00000000#32 h hφ hacc (ix2 i k)
      = ∑ j : Fin b, src (ix3 i j k) := by
  refine (Ideal.multiReduction_add_single src 0x00000000#32 h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- The sum of an [a, c] matrix over its first axis, at k: the sum over i of the matrix at (i, k). -/
theorem sum_first_apply (src : FVec Ideal ⟨2, ![a, c]⟩ .f32)
    (h : (⟨2, ![a, c]⟩ : Shape).Reduces [0] ⟨1, ![c]⟩) (hφ : FKind.Formats .f32)
    (hacc : (0x00000000#32 : BitVec FTy.f32.bits) = FKind.add.neutral .f32 hφ) (k : Fin c) :
    multiReduction (F := Ideal) .add [0] ⟨1, ![c]⟩ src 0x00000000#32 h hφ hacc (ix1 k)
      = ∑ i : Fin a, src (ix2 i k) := by
  refine (Ideal.multiReduction_add_single src 0x00000000#32 h hφ hacc (ix1 k)).trans ?_
  refine Finset.sum_congr rfl fun i _ => congrArg src (funext fun ax => Fin.ext ?_)
  match ax with
  | ⟨0, _⟩ => rfl
  | ⟨1, _⟩ => rfl

end Cert.KernelIdeal.Net

end
-- ==== Proof.KernelNet.lean ====
/-
  What one grid point's body leaves in the output block, read at an index, is the specification's network of the
  point's input block.

  The body is three pure stages. The first embeds each of the 64 points (two rectified linear layers on its first 3
  and its last 13 coordinates, added) and applies the first refining layer: row n of its result is the
  specification's hidden row of point n. The second applies the two remaining refining layers, multiplies the
  features by the two halves of the pairwise weight, lays the two products and the bias out over a 64 × 64 × 512 box,
  rectifies, and sums over the second and then the first point of the pair: entry c of its result is the
  specification's sum over all ordered pairs. The third divides by the constant word, applies the last linear layer
  and casts the row to the block's shape. Each stage is read at an index with the layer lemma and the layout readings,
  from the outermost operation inwards.
-/
import proofs.«157928_j21328807592435_1_alg».proof.Proof.Gen.KernelIdeal.Frame
import proofs.«157928_j21328807592435_1_alg».proof.Proof.Spec
import proofs.«157928_j21328807592435_1_alg».proof.Proof.KernelNetLayer

noncomputable section

namespace Cert.KernelIdeal.Net

open Cert.KernelIdeal Idealize.ShloMosaic Idealize.ShloMosaic.ValueIdx

/-! ## A rectified linear layer as a whole array -/

/-- The array a rectified linear layer produces from the input A, the output-major weight w and the bias b. -/
def layerOut {M K N : Nat} {φ₁ φ₂ : FTy} (A : FVec Ideal ⟨2, ![M, K]⟩ φ₁) (w : FVec Ideal ⟨2, ![N, K]⟩ φ₂)
    (b : FVec Ideal ⟨1, ![N]⟩ .f32) : FVec Ideal ⟨2, ![M, N]⟩ .f32 :=
  fun i => Cert.PairPool.relu (Cert.PairPool.lin (fun k => A (ix2 (i 0) k)) (fun k => w (ix2 (i 1) k)) (b (ix1 (i 1))))

/-- The body's rectified linear layer, as a whole array. -/
theorem layer_eq {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (w : FVec Ideal ⟨2, ![N, K]⟩ φ₂) (b : FVec Ideal ⟨1, ![N]⟩ .f32)
    (hs : (⟨2, ![N, K]⟩ : Shape).ShapeCasts ⟨2, ![N, K]⟩)
    (ht : (⟨2, ![N, K]⟩ : Shape).Transposes [1, 0] ⟨2, ![K, N]⟩)
    (hc : (⟨1, ![N]⟩ : Shape).ShapeCasts ⟨2, ![1, N]⟩)
    (hb : (⟨2, ![1, N]⟩ : Shape).Broadcasts ⟨2, ![M, N]⟩) :
    maximumf
        (addf (matmul d prec A (transpose ⟨2, ![K, N]⟩ [1, 0] (shapeCast ⟨2, ![N, K]⟩ w hs) ht)
            (constant ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32))
      = layerOut A w b := by
  funext i
  obtain ⟨r, c, rfl⟩ : ∃ (r : Fin M) (c : Fin N), i = ix2 r c := ⟨i 0, i 1, eq_ix2 i⟩
  exact layer_apply d hlc hrc hln hrn hlb hrb prec A w b hs ht hc hb r c

/-! ## The first stage: a point's hidden row -/

/-- Row n of the first stage's result is the specification's hidden row of point n of the input block. -/
theorem hidden_apply (x0 : FVec Ideal S1x64x16 .f32) (x1 : FVec Ideal S128x3 .bf16) (x2 : FVec Ideal S128 .f32)
    (x3 : FVec Ideal S128x13 .bf16) (x4 : FVec Ideal S128 .f32) (x5 : FVec Ideal S256x128 .bf16) (x6 : FVec Ideal S256 .f32)
    (x7 : FVec Ideal S512x256 .bf16) (x8 : FVec Ideal S512 .f32) (x9 : FVec Ideal S1024x512 .bf16) (x10 : FVec Ideal S1024 .f32)
    (x11 : FVec Ideal S512x2048 .bf16) (x12 : FVec Ideal S512 .f32) (x13 : FVec Ideal S2048x512 .bf16) (x14 : FVec Ideal S2048 .f32)
    (n : Fin 64) (c : Fin 256) :
    Gen.k0_pay2 (F := Ideal) x0 x1 x3 x2 x4 x5 x6 (ix2 n c)
      = Cert.PairPool.hidden1 (Cert.PairPool.weightsOf x1 x2 x3 x4 x5 x6 x7 x8 x9 x10 x11 x12 x13 x14)
          (fun k => x0 (ix3 (0 : Fin 1) n k)) c := by
  unfold Gen.k0_pay2
  dsimp only
  -- the first refining layer, on the embedding narrowed to bf16
  rw [truncf_apply, layer_apply dot_S64x128_S128x256_S64x256_1_0_0_1_n_n rfl rfl rfl rfl rfl rfl]
  refine congrArg Cert.PairPool.relu (lin_congr (fun k => ?_) _ _)
  -- the embedding: the two rectified layers on the two column ranges of the point, added
  rw [truncf_apply, addf_apply, layer_apply dot_S64x3_S3x128_S64x128_1_0_0_1_n_n rfl rfl rfl rfl rfl rfl,
    layer_apply dot_S64x13_S13x128_S64x128_1_0_0_1_n_n rfl rfl rfl rfl rfl rfl]
  refine congrArg₂ (· + ·) (congrArg Cert.PairPool.relu (lin_congr (fun j => ?_) _ _))
    (congrArg Cert.PairPool.relu (lin_congr (fun j => ?_) _ _))
  · -- columns 0, 1, 2 of row n of the block cast to 64 × 16
    rw [truncf_apply]
    exact (slice2_axis1_apply 0 (shapeCast S64x16 x0 _) _ n j ⟨j.val, by have := j.isLt; omega⟩
      (Nat.zero_add j.val).symm).trans (shapeCast_1ab_ab_apply x0 _ n _)
  · -- columns 3 to 15
    rw [truncf_apply]
    exact (slice2_axis1_apply 3 (shapeCast S64x16 x0 _) _ n j ⟨3 + j.val, by have := j.isLt; omega⟩ rfl).trans
      (shapeCast_1ab_ab_apply x0 _ n _)

/-! ## The second stage: the activations summed over all ordered pairs -/

/-- Entry c of the second stage's result is the specification's sum, over all ordered pairs of points, of the
    pairwise activation c of the two points' features, a point's features computed from its hidden row. -/
theorem pair_sum_apply (h : FVec Ideal S64x256 .bf16) (x1 : FVec Ideal S128x3 .bf16) (x2 : FVec Ideal S128 .f32)
    (x3 : FVec Ideal S128x13 .bf16) (x4 : FVec Ideal S128 .f32) (x5 : FVec Ideal S256x128 .bf16) (x6 : FVec Ideal S256 .f32)
    (x7 : FVec Ideal S512x256 .bf16) (x8 : FVec Ideal S512 .f32) (x9 : FVec Ideal S1024x512 .bf16) (x10 : FVec Ideal S1024 .f32)
    (x11 : FVec Ideal S512x2048 .bf16) (x12 : FVec Ideal S512 .f32) (x13 : FVec Ideal S2048x512 .bf16) (x14 : FVec Ideal S2048 .f32)
    (c : Fin 512) :
    Gen.k0_pay3 (F := Ideal) h x7 x8 x9 x10 x11 x12 (ix1 c)
      = Cert.PairPool.pairSum (Cert.PairPool.weightsOf x1 x2 x3 x4 x5 x6 x7 x8 x9 x10 x11 x12 x13 x14)
          (fun n => Cert.PairPool.featOf (Cert.PairPool.weightsOf x1 x2 x3 x4 x5 x6 x7 x8 x9 x10 x11 x12 x13 x14)
            (fun k => h (ix2 n k))) c := by
  unfold Gen.k0_pay3
  dsimp only
  -- the two refining layers, wherever the features occur
  rw [layer_eq dot_S64x256_S256x512_S64x512_1_0_0_1_n_n rfl rfl rfl rfl rfl rfl,
    layer_eq dot_S64x512_S512x1024_S64x1024_1_0_0_1_n_n rfl rfl rfl rfl rfl rfl]
  -- the sum over the pair's first point, then over its second
  refine (sum_first_apply _ _ _ _ c).trans ?_
  unfold Cert.PairPool.pairSum
  refine Finset.sum_congr rfl fun i _ => ?_
  refine (sum_middle_apply _ _ _ _ i c).trans ?_
  refine Finset.sum_congr rfl fun j _ => ?_
  -- one pair: the two products and the bias, laid out over the box, added and rectified
  rw [maximumf_apply, broadcast_apply, addf_apply, addf_apply, broadcast_rows_apply, broadcast_cols_apply,
    broadcast_lane_apply,
    matmul_transpose_apply dot_S64x1024_S1024x512_S64x512_1_0_0_1_n_n rfl rfl rfl rfl rfl rfl,
    matmul_transpose_apply dot_S64x1024_S1024x512_S64x512_1_0_0_1_n_n rfl rfl rfl rfl rfl rfl]
  show max _ (Ideal.ofBits .f32 0x00000000#32) = _
  rw [Ideal.ofBits_zero_f32]
  unfold Cert.PairPool.pairAct Cert.PairPool.partA Cert.PairPool.partB
  refine congrArg (max · (0 : EReal)) (congrArg₂ (· + ·) (congrArg₂ (· + ·) ?_ ?_) rfl)
  · -- point i's features against columns 1024 to 2047 of the pairwise weight
    refine Finset.sum_congr rfl fun k _ => congrArg₂ (· * ·) rfl ?_
    exact (slice2_axis1_apply 1024 (shapeCast S512x2048 x11 _) _ c k ⟨1024 + k.val, by have := k.isLt; omega⟩ rfl).trans
      (congrFun (shapeCast_self x11 _) _)
  · -- point j's features against columns 0 to 1023
    refine Finset.sum_congr rfl fun k _ => congrArg₂ (· * ·) rfl ?_
    exact (slice2_axis1_apply 0 (shapeCast S512x2048 x11 _) _ c k ⟨k.val, by have := k.isLt; omega⟩
      (Nat.zero_add k.val).symm).trans
      (congrFun (shapeCast_self x11 _) _)

/-! ## The third stage: the mean and the last linear layer -/

/-- Entry (0, 0, o) of the third stage's result: the last linear layer's output o on the summed activations, each
    divided by the constant word. -/
theorem head_apply (s : FVec Ideal S512 .f32) (x13 : FVec Ideal S2048x512 .bf16) (x14 : FVec Ideal S2048 .f32)
    (o : Fin 2048) :
    Gen.k0_pay1 (F := Ideal) s (Scalar.ofBits (F := Ideal) .f32 0x45800000#32) x13 x14 (ix3 (0 : Fin 1) (0 : Fin 1) o)
      = Cert.PairPool.lin (fun k => Ideal.div (s (ix1 k)) (Ideal.ofBits .f32 0x45800000#32))
          (fun k => x13 (ix2 o k)) (x14 (ix1 o)) := by
  unfold Gen.k0_pay1
  dsimp only
  rw [shapeCast_ab_1ab_apply, addf_apply, shapeCast_a_1a_apply, shapeCast_self x13,
    matmul_transpose_apply dot_S1x512_S512x2048_S1x2048_1_0_0_1_n_n rfl rfl rfl rfl rfl rfl]
  refine congrArg (· + x14 (ix1 o)) (Finset.sum_congr rfl fun k _ => congrArg (· * x13 (ix2 o k)) ?_)
  -- the pooled row: the sum's entry k, divided, narrowed, cast to one row
  rw [shapeCast_a_1a_apply, truncf_apply, divf_apply, broadcast_apply]
  rfl

/-! ## The block -/

/-- The zero offsets of a whole-block rectangle, at ranks 1, 2 and 3. -/
theorem zeros1 : (![0] : Fin 1 → Nat) = fun _ => 0 := funext fun a => match a with | ⟨0, _⟩ => rfl
theorem zeros2 : (![0, 0] : Fin 2 → Nat) = fun _ => 0 :=
  funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl

/-- Entry (0, 0, o) of the output block is the network's output o on the 64 points of the input block, the weights
    read off the other fourteen blocks. -/
theorem block_out (x0 : Vec Ideal S1x64x16 .f32) (x1 : Vec Ideal S128x3 .bf16) (x2 : Vec Ideal S128 .f32)
    (x3 : Vec Ideal S128x13 .bf16) (x4 : Vec Ideal S128 .f32) (x5 : Vec Ideal S256x128 .bf16) (x6 : Vec Ideal S256 .f32)
    (x7 : Vec Ideal S512x256 .bf16) (x8 : Vec Ideal S512 .f32) (x9 : Vec Ideal S1024x512 .bf16) (x10 : Vec Ideal S1024 .f32)
    (x11 : Vec Ideal S512x2048 .bf16) (x12 : Vec Ideal S512 .f32) (x13 : Vec Ideal S2048x512 .bf16) (x14 : Vec Ideal S2048 .f32)
    (o : Fin 2048) :
    Cert.KernelIdeal.Gen.out0_15 (F := Ideal) x0 x1 x2 x3 x4 x5 x6 x7 x8 x9 x10 x11 x12 x13 x14
        (ix3 (0 : Fin 1) (0 : Fin 1) o)
      = Cert.PairPool.out (Cert.PairPool.weightsOf x1 x2 x3 x4 x5 x6 x7 x8 x9 x10 x11 x12 x13 x14)
          (fun n k => x0 (ix3 (0 : Fin 1) n k)) o := by
  -- the one store covers the block, and every load reads its whole block
  unfold Gen.out0_15
  rw [View.canon_unit_zero zeros3]
  simp only [View.ld_unit_zero (S := S1x64x16) zeros3, View.ld_unit_zero (S := S128x3) zeros2,
    View.ld_unit_zero (S := S128x13) zeros2, View.ld_unit_zero (S := S128) zeros1,
    View.ld_unit_zero (S := S256x128) zeros2, View.ld_unit_zero (S := S256) zeros1,
    View.ld_unit_zero (S := S512x256) zeros2, View.ld_unit_zero (S := S512) zeros1,
    View.ld_unit_zero (S := S1024x512) zeros2, View.ld_unit_zero (S := S1024) zeros1,
    View.ld_unit_zero (S := S512x2048) zeros2, View.ld_unit_zero (S := S2048x512) zeros2,
    View.ld_unit_zero (S := S2048) zeros1]
  -- the three stages, the outermost first
  refine (head_apply _ x13 x14 o).trans ?_
  simp only [pair_sum_apply _ x1 x2 x3 x4 x5 x6 x7 x8 x9 x10 x11 x12 x13 x14,
    hidden_apply x0 x1 x2 x3 x4 x5 x6 x7 x8 x9 x10 x11 x12 x13 x14]
  rfl

end Cert.KernelIdeal.Net

end
-- ==== Proof.KernelArrays.lean ====
/-
  The kernel's result array as one function of the argument arrays.

  The grid has one point per batch element. At point t the pipeline hands the body block t of the input, the 64
  points of batch element t, and every weight and bias whole; the seven weight matrices reach the call through a
  host line that narrows them to bf16, which changes nothing on the extended reals. The body leaves the network's
  2048 outputs in block t of the [16, 1, 2048] result, the sixteen blocks tile that array, and the host line after the
  call drops its unit axis. So entry (b, o) of the result is the network's output o on the points of batch element b.
-/
import proofs.«157928_j21328807592435_1_alg».proof.Proof.Gen.KernelIdeal.Frame
import proofs.«157928_j21328807592435_1_alg».proof.Proof.KernelNet
import proofs.«157928_j21328807592435_1_alg».proof.Proof.Spec
import Idealize.ShloMosaic.Lib.StableHlo.Run
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The narrowed weights are the weights -/

/-- The array window 1 stages, the bf16 copy of argument 1, holds argument 1's extended reals. -/
theorem V_main_v0 (c : Dev nD) : (V m c main_v0 : S128x3.Idx → EReal) = m ((c : Thread nD τ).loc main_arg1) := by
  show StableHlo.after hostOps0 (fun b => m (c, b)) (Proc.devRef .tc main_v0) = _
  after_results
  rfl

/-- The array window 3 stages, the bf16 copy of argument 3, holds argument 3's extended reals. -/
theorem V_main_v1 (c : Dev nD) : (V m c main_v1 : S128x13.Idx → EReal) = m ((c : Thread nD τ).loc main_arg3) := by
  show StableHlo.after hostOps0 (fun b => m (c, b)) (Proc.devRef .tc main_v1) = _
  after_results
  rfl

/-- The array window 5 stages, the bf16 copy of argument 5, holds argument 5's extended reals. -/
theorem V_main_v2 (c : Dev nD) : (V m c main_v2 : S256x128.Idx → EReal) = m ((c : Thread nD τ).loc main_arg5) := by
  show StableHlo.after hostOps0 (fun b => m (c, b)) (Proc.devRef .tc main_v2) = _
  after_results
  rfl

/-- The array window 7 stages, the bf16 copy of argument 7, holds argument 7's extended reals. -/
theorem V_main_v3 (c : Dev nD) : (V m c main_v3 : S512x256.Idx → EReal) = m ((c : Thread nD τ).loc main_arg7) := by
  show StableHlo.after hostOps0 (fun b => m (c, b)) (Proc.devRef .tc main_v3) = _
  after_results
  rfl

/-- The array window 9 stages, the bf16 copy of argument 9, holds argument 9's extended reals. -/
theorem V_main_v4 (c : Dev nD) : (V m c main_v4 : S1024x512.Idx → EReal) = m ((c : Thread nD τ).loc main_arg9) := by
  show StableHlo.after hostOps0 (fun b => m (c, b)) (Proc.devRef .tc main_v4) = _
  after_results
  rfl

/-- The array window 11 stages, the bf16 copy of argument 11, holds argument 11's extended reals. -/
theorem V_main_v5 (c : Dev nD) : (V m c main_v5 : S512x2048.Idx → EReal) = m ((c : Thread nD τ).loc main_arg11) := by
  show StableHlo.after hostOps0 (fun b => m (c, b)) (Proc.devRef .tc main_v5) = _
  after_results
  rfl

/-- The array window 13 stages, the bf16 copy of argument 13, holds argument 13's extended reals. -/
theorem V_main_v6 (c : Dev nD) : (V m c main_v6 : S2048x512.Idx → EReal) = m ((c : Thread nD τ).loc main_arg13) := by
  show StableHlo.after hostOps0 (fun b => m (c, b)) (Proc.devRef .tc main_v6) = _
  after_results
  rfl

/-! ## The block indices over the grid -/

/-- The input's block index at point t is (t, 0, 0). -/
theorem index_x : ∀ t : Fin cfg0.N, win0_0.index t (0 : Fin 3) = t.val ∧ win0_0.index t (1 : Fin 3) = 0
    ∧ win0_0.index t (2 : Fin 3) = 0 :=
  (by decide +kernel : ∀ t : Fin grid0.N, _)

/-- Every weight matrix is one block, at index (0, 0), at every point. -/
theorem index_mats : ∀ t : Fin cfg0.N,
    win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0
    ∧ win0_11.index t (0 : Fin 2) = 0 ∧ win0_11.index t (1 : Fin 2) = 0
    ∧ win0_13.index t (0 : Fin 2) = 0 ∧ win0_13.index t (1 : Fin 2) = 0 :=
  (by decide +kernel : ∀ t : Fin grid0.N, _)

/-- Every bias vector is one block, at index 0, at every point. -/
theorem index_vecs : ∀ t : Fin cfg0.N,
    win0_2.index t (0 : Fin 1) = 0 ∧ win0_4.index t (0 : Fin 1) = 0 ∧ win0_6.index t (0 : Fin 1) = 0 ∧ win0_8.index t (0 : Fin 1) = 0 ∧ win0_10.index t (0 : Fin 1) = 0 ∧ win0_12.index t (0 : Fin 1) = 0 ∧ win0_14.index t (0 : Fin 1) = 0 :=
  (by decide +kernel : ∀ t : Fin grid0.N, _)

/-- The result's block index at point t is (t, 0, 0). -/
theorem index_out : ∀ t : Fin cfg0.N, win0_15.index t (0 : Fin 3) = t.val ∧ win0_15.index t (1 : Fin 3) = 0
    ∧ win0_15.index t (2 : Fin 3) = 0 :=
  (by decide +kernel : ∀ t : Fin grid0.N, _)

/-! ## What each window's block holds at a point -/

/-- A grid point as a batch index. -/
def batchOf (t : Fin cfg0.N) : Fin 16 := ⟨t.val, Nat.lt_of_lt_of_eq t.isLt N_0⟩

/-- Row n of the input block at point t is row n of batch element t. -/
theorem blk_x (c : Dev nD) (t : Fin cfg0.N) (n : Fin 64) (k : Fin 16) :
    (iblk m c 0 t : S1x64x16.Idx → EReal) (ix3 (0 : Fin 1) n k)
      = (m ((c : Thread nD τ).loc main_arg0) : S16x64x16.Idx → EReal) (ix3 (batchOf t) n k) := by
  rw [← V_main_arg0 m c]
  obtain ⟨e0, e1, e2⟩ := index_x t
  show V m c main_arg0 (((cfg0.win 0).blk t).view.emb (ix3 (0 : Fin 1) n k)) = V m c main_arg0 (ix3 (batchOf t) n k)
  refine congrArg _ (funext fun a => Fin.ext ?_)
  match a with
  | ⟨0, _⟩ => show win0_0.index t (0 : Fin 3) * 1 + 1 * 0 = t.val; omega
  | ⟨1, _⟩ => show win0_0.index t (1 : Fin 3) * 64 + 1 * n.val = n.val; omega
  | ⟨2, _⟩ => show win0_0.index t (2 : Fin 3) * 16 + 1 * k.val = k.val; omega

/-- Window 1's block is the whole of argument 1 at every point. -/
theorem blk_1 (c : Dev nD) (t : Fin cfg0.N) : (iblk m c 1 t : S128x3.Idx → EReal) = m ((c : Thread nD τ).loc main_arg1) := by
  refine Eq.trans ?_ (V_main_v0 m c)
  funext y
  obtain ⟨e0, e1, -, -, -, -, -, -, -, -, -, -, -, -⟩ := index_mats t
  show V m c main_v0 (((cfg0.win 1).blk t).view.emb y) = V m c main_v0 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 3 + 1 * (y 1).val = (y 1).val; omega

/-- Window 3's block is the whole of argument 3 at every point. -/
theorem blk_3 (c : Dev nD) (t : Fin cfg0.N) : (iblk m c 3 t : S128x13.Idx → EReal) = m ((c : Thread nD τ).loc main_arg3) := by
  refine Eq.trans ?_ (V_main_v1 m c)
  funext y
  obtain ⟨-, -, e0, e1, -, -, -, -, -, -, -, -, -, -⟩ := index_mats t
  show V m c main_v1 (((cfg0.win 3).blk t).view.emb y) = V m c main_v1 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 13 + 1 * (y 1).val = (y 1).val; omega

/-- Window 5's block is the whole of argument 5 at every point. -/
theorem blk_5 (c : Dev nD) (t : Fin cfg0.N) : (iblk m c 5 t : S256x128.Idx → EReal) = m ((c : Thread nD τ).loc main_arg5) := by
  refine Eq.trans ?_ (V_main_v2 m c)
  funext y
  obtain ⟨-, -, -, -, e0, e1, -, -, -, -, -, -, -, -⟩ := index_mats t
  show V m c main_v2 (((cfg0.win 5).blk t).view.emb y) = V m c main_v2 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- Window 7's block is the whole of argument 7 at every point. -/
theorem blk_7 (c : Dev nD) (t : Fin cfg0.N) : (iblk m c 7 t : S512x256.Idx → EReal) = m ((c : Thread nD τ).loc main_arg7) := by
  refine Eq.trans ?_ (V_main_v3 m c)
  funext y
  obtain ⟨-, -, -, -, -, -, e0, e1, -, -, -, -, -, -⟩ := index_mats t
  show V m c main_v3 (((cfg0.win 7).blk t).view.emb y) = V m c main_v3 y
  refine congrArg _ (funext fun a => Fin.ext ?_)
  match a with
  | ⟨0, _⟩ => show win0_7.index t (0 : Fin 2) * 512 + 1 * (y 0).val = (y 0).val; omega
  | ⟨1, _⟩ => show win0_7.index t (1 : Fin 2) * 256 + 1 * (y 1).val = (y 1).val; omega

/-- Window 9's block is the whole of argument 9 at every point. -/
theorem blk_9 (c : Dev nD) (t : Fin cfg0.N) : (iblk m c 9 t : S1024x512.Idx → EReal) = m ((c : Thread nD τ).loc main_arg9) := by
  refine Eq.trans ?_ (V_main_v4 m c)
  funext y
  obtain ⟨-, -, -, -, -, -, -, -, e0, e1, -, -, -, -⟩ := index_mats t
  show V m c main_v4 (((cfg0.win 9).blk t).view.emb y) = V m c main_v4 y
  refine congrArg _ (funext fun a => Fin.ext ?_)
  match a with
  | ⟨0, _⟩ => show win0_9.index t (0 : Fin 2) * 1024 + 1 * (y 0).val = (y 0).val; omega
  | ⟨1, _⟩ => show win0_9.index t (1 : Fin 2) * 512 + 1 * (y 1).val = (y 1).val; omega

/-- Window 11's block is the whole of argument 11 at every point. -/
theorem blk_11 (c : Dev nD) (t : Fin cfg0.N) : (iblk m c 11 t : S512x2048.Idx → EReal) = m ((c : Thread nD τ).loc main_arg11) := by
  refine Eq.trans ?_ (V_main_v5 m c)
  funext y
  obtain ⟨-, -, -, -, -, -, -, -, -, -, e0, e1, -, -⟩ := index_mats t
  show V m c main_v5 (((cfg0.win 11).blk t).view.emb y) = V m c main_v5 y
  refine congrArg _ (funext fun a => Fin.ext ?_)
  match a with
  | ⟨0, _⟩ => show win0_11.index t (0 : Fin 2) * 512 + 1 * (y 0).val = (y 0).val; omega
  | ⟨1, _⟩ => show win0_11.index t (1 : Fin 2) * 2048 + 1 * (y 1).val = (y 1).val; omega

/-- Window 13's block is the whole of argument 13 at every point. -/
theorem blk_13 (c : Dev nD) (t : Fin cfg0.N) : (iblk m c 13 t : S2048x512.Idx → EReal) = m ((c : Thread nD τ).loc main_arg13) := by
  refine Eq.trans ?_ (V_main_v6 m c)
  funext y
  obtain ⟨-, -, -, -, -, -, -, -, -, -, -, -, e0, e1⟩ := index_mats t
  show V m c main_v6 (((cfg0.win 13).blk t).view.emb y) = V m c main_v6 y
  refine congrArg _ (funext fun a => Fin.ext ?_)
  match a with
  | ⟨0, _⟩ => show win0_13.index t (0 : Fin 2) * 2048 + 1 * (y 0).val = (y 0).val; omega
  | ⟨1, _⟩ => show win0_13.index t (1 : Fin 2) * 512 + 1 * (y 1).val = (y 1).val; omega

/-- Window 2's block is the whole of argument 2 at every point. -/
theorem blk_2 (c : Dev nD) (t : Fin cfg0.N) : (iblk m c 2 t : S128.Idx → EReal) = m ((c : Thread nD τ).loc main_arg2) := by
  refine Eq.trans ?_ (V_main_arg2 m c)
  funext y
  obtain ⟨e0, -, -, -, -, -, -⟩ := index_vecs t
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; omega

/-- Window 4's block is the whole of argument 4 at every point. -/
theorem blk_4 (c : Dev nD) (t : Fin cfg0.N) : (iblk m c 4 t : S128.Idx → EReal) = m ((c : Thread nD τ).loc main_arg4) := by
  refine Eq.trans ?_ (V_main_arg4 m c)
  funext y
  obtain ⟨-, e0, -, -, -, -, -⟩ := index_vecs t
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; omega

/-- Window 6's block is the whole of argument 6 at every point. -/
theorem blk_6 (c : Dev nD) (t : Fin cfg0.N) : (iblk m c 6 t : S256.Idx → EReal) = m ((c : Thread nD τ).loc main_arg6) := by
  refine Eq.trans ?_ (V_main_arg6 m c)
  funext y
  obtain ⟨-, -, e0, -, -, -, -⟩ := index_vecs t
  show V m c main_arg6 (((cfg0.win 6).blk t).view.emb y) = V m c main_arg6 y
  refine congrArg _ (funext fun a => Fin.ext ?_)
  match a with
  | ⟨0, _⟩ => show win0_6.index t (0 : Fin 1) * 256 + 1 * (y 0).val = (y 0).val; omega

/-- Window 8's block is the whole of argument 8 at every point. -/
theorem blk_8 (c : Dev nD) (t : Fin cfg0.N) : (iblk m c 8 t : S512.Idx → EReal) = m ((c : Thread nD τ).loc main_arg8) := by
  refine Eq.trans ?_ (V_main_arg8 m c)
  funext y
  obtain ⟨-, -, -, e0, -, -, -⟩ := index_vecs t
  show V m c main_arg8 (((cfg0.win 8).blk t).view.emb y) = V m c main_arg8 y
  refine congrArg _ (funext fun a => Fin.ext ?_)
  match a with
  | ⟨0, _⟩ => show win0_8.index t (0 : Fin 1) * 512 + 1 * (y 0).val = (y 0).val; omega

/-- Window 10's block is the whole of argument 10 at every point. -/
theorem blk_10 (c : Dev nD) (t : Fin cfg0.N) : (iblk m c 10 t : S1024.Idx → EReal) = m ((c : Thread nD τ).loc main_arg10) := by
  refine Eq.trans ?_ (V_main_arg10 m c)
  funext y
  obtain ⟨-, -, -, -, e0, -, -⟩ := index_vecs t
  show V m c main_arg10 (((cfg0.win 10).blk t).view.emb y) = V m c main_arg10 y
  refine congrArg _ (funext fun a => Fin.ext ?_)
  match a with
  | ⟨0, _⟩ => show win0_10.index t (0 : Fin 1) * 1024 + 1 * (y 0).val = (y 0).val; omega

/-- Window 12's block is the whole of argument 12 at every point. -/
theorem blk_12 (c : Dev nD) (t : Fin cfg0.N) : (iblk m c 12 t : S512.Idx → EReal) = m ((c : Thread nD τ).loc main_arg12) := by
  refine Eq.trans ?_ (V_main_arg12 m c)
  funext y
  obtain ⟨-, -, -, -, -, e0, -⟩ := index_vecs t
  show V m c main_arg12 (((cfg0.win 12).blk t).view.emb y) = V m c main_arg12 y
  refine congrArg _ (funext fun a => Fin.ext ?_)
  match a with
  | ⟨0, _⟩ => show win0_12.index t (0 : Fin 1) * 512 + 1 * (y 0).val = (y 0).val; omega

/-- Window 14's block is the whole of argument 14 at every point. -/
theorem blk_14 (c : Dev nD) (t : Fin cfg0.N) : (iblk m c 14 t : S2048.Idx → EReal) = m ((c : Thread nD τ).loc main_arg14) := by
  refine Eq.trans ?_ (V_main_arg14 m c)
  funext y
  obtain ⟨-, -, -, -, -, -, e0⟩ := index_vecs t
  show V m c main_arg14 (((cfg0.win 14).blk t).view.emb y) = V m c main_arg14 y
  refine congrArg _ (funext fun a => Fin.ext ?_)
  match a with
  | ⟨0, _⟩ => show win0_14.index t (0 : Fin 1) * 2048 + 1 * (y 0).val = (y 0).val; omega

/-! ## The call's result array -/

/-- The network's weights read off the argument arrays. -/
def weights (c : Dev nD) : Cert.PairPool.Weights :=
  Cert.PairPool.weightsOf (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))

/-- The 64 points of batch element b. -/
def points (c : Dev nD) (b : Fin 16) : Fin 64 → Fin 16 → EReal :=
  fun n k => (m ((c : Thread nD τ).loc main_arg0) : S16x64x16.Idx → EReal) (ix3 b n k)

/-- The [16, 1, 2048] array the call leaves: entry (b, 0, o) is the network's output o on batch element b. -/
def callOut (c : Dev nD) : S16x1x2048.Idx → EReal :=
  fun i => Cert.PairPool.out (weights m c) (points m c (i 0)) (i 2)

/-- What the body leaves at point t, entry by entry, is the call's array read through block t. -/
theorem flushed_apply (c : Dev nD) (t : Fin cfg0.N) (o : Fin 2048) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 (0 : Fin 1) (0 : Fin 1) o)
      = callOut m c (ix3 (batchOf t) (0 : Fin 1) o) := by
  refine (Cert.KernelIdeal.Net.block_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) o).trans ?_
  show Cert.PairPool.out (Cert.PairPool.weightsOf (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
      (fun n k => (iblk m c 0 t : S1x64x16.Idx → EReal) (ix3 (0 : Fin 1) n k)) o
    = Cert.PairPool.out (weights m c) (points m c (batchOf t)) o
  rw [blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t]
  have hx : (fun n k => (iblk m c 0 t : S1x64x16.Idx → EReal) (ix3 (0 : Fin 1) n k)) = points m c (batchOf t) :=
    funext fun n => funext fun k => blk_x m c t n k
  rw [hx]
  rfl

/-- Block t of the result array sits at (t, 0, 0). -/
theorem emb_out (t : Fin cfg0.N) (o : Fin 2048) :
    ((cfg0.win 15).blk t).view.emb (ix3 (0 : Fin 1) (0 : Fin 1) o) = ix3 (batchOf t) (0 : Fin 1) o := by
  obtain ⟨e0, e1, e2⟩ := index_out t
  refine funext fun a => Fin.ext ?_
  match a with
  | ⟨0, _⟩ => show win0_15.index t (0 : Fin 3) * 1 + 1 * 0 = t.val; omega
  | ⟨1, _⟩ => show win0_15.index t (1 : Fin 3) * 1 + 1 * 0 = 0; omega
  | ⟨2, _⟩ => show win0_15.index t (2 : Fin 3) * 2048 + 1 * o.val = o.val; omega

/-- What point t writes back is block t of the call's array. -/
theorem flushed_eq (c : Dev nD) (t : Fin cfg0.N) :
    (dats m 0 c).flushed 15 t = ((cfg0.win 15).blk t).view.read (Elt Ideal) (callOut m c) := by
  show (cfg0.win 15).cut (grid0.coords t) ((dats m 0 c).after 15 t) = _
  rw [after0_15]
  funext j
  obtain ⟨u, v, o, rfl⟩ : ∃ (u v : Fin 1) (o : Fin 2048), j = ix3 u v o := ⟨j 0, j 1, j 2, eq_ix3 j⟩
  obtain rfl : u = 0 := Subsingleton.elim _ _
  obtain rfl : v = 0 := Subsingleton.elim _ _
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 (0 : Fin 1) (0 : Fin 1) o)
    = callOut m c (((cfg0.win 15).blk t).view.emb (ix3 (0 : Fin 1) (0 : Fin 1) o))
  rw [emb_out t o]
  exact flushed_apply m c t o

/-- An index of the result array is in block t iff each coordinate is in the block's range on its axis. -/
theorem mem_blk (t : Fin cfg0.N) (i : S16x1x2048.Idx) :
    i ∈ ((cfg0.win 15).blk t).view.set ↔ ∀ a : Fin 3, win0_15.index t a * S1x1x2048.size a ≤ (i a).val
      ∧ (i a).val < win0_15.index t a * S1x1x2048.size a + S1x1x2048.size a := by
  show i ∈ ((View.whole main_v7).slice (win0_15.rect t)).set ↔ _
  rw [View.set_slice_whole, Rect.mem_set_unit]
  exact Iff.rfl

/-- The sixteen blocks cover the result array: index (b, 0, o) lies in point b's block. -/
theorem cover (i : S16x1x2048.Idx) :
    ∃ t : Fin cfg0.N, (cfg0.win 15).flush t = true ∧ i ∈ ((cfg0.win 15).blk t).view.set := by
  have h0 : (i 0).val < 16 := (i 0).isLt
  have h1 : (i 1).val < 1 := (i 1).isLt
  have h2 : (i 2).val < 2048 := (i 2).isLt
  obtain ⟨t, ht⟩ : ∃ t : Fin cfg0.N, t.val = (i 0).val :=
    ⟨⟨(i 0).val, by rw [show cfg0.N = 16 from N_0]; exact h0⟩, rfl⟩
  obtain ⟨e0, e1, e2⟩ := index_out t
  refine ⟨t, flush0_15 t, ?_⟩
  rw [mem_blk]
  intro a
  match a with
  | ⟨0, _⟩ =>
    show win0_15.index t (0 : Fin 3) * 1 ≤ (i 0).val ∧ (i 0).val < win0_15.index t (0 : Fin 3) * 1 + 1
    omega
  | ⟨1, _⟩ =>
    show win0_15.index t (1 : Fin 3) * 1 ≤ (i 1).val ∧ (i 1).val < win0_15.index t (1 : Fin 3) * 1 + 1
    omega
  | ⟨2, _⟩ =>
    show win0_15.index t (2 : Fin 3) * 2048 ≤ (i 2).val ∧ (i 2).val < win0_15.index t (2 : Fin 3) * 2048 + 2048
    omega

/-- After the last point the result window's array holds the call's array. -/
theorem final (c : Dev nD) : (dats m 0 c).arrAt 15 cfg0.N = callOut m c :=
  (dats m 0 c).arrAt_eq_of_cover 15 (callOut m c) (fun t _ => flushed_eq m c t) cover

/-! ## The program's result -/

/-- The [16, 2048] result: entry (b, o) is the network's output o on batch element b. -/
def result (c : Dev nD) : S16x2048.Idx → EReal :=
  fun i => Cert.PairPool.out (weights m c) (points m c (i 0)) (i 1)

/-- The host line after the call drops the unit axis of the call's array. -/
theorem tail_eq (c : Dev nD) :
    Pipeline.afterTail₀ cfgs (dats m) 0 (V0 m) [hostOps1] c main_v8 = result m c := by
  have hw : Pipeline.withArrays spec0 c (V0 m c) (fun w => (dats m 0 c).arrAt w cfg0.N) (Proc.devRef .tc main_v7)
      = callOut m c :=
    (Pipeline.withArrays_arr spec0 winFacts0.arr_inj c _ _ 15).trans (final m c)
  unfold Pipeline.afterTail₀
  show StableHlo.after hostOps1 _ (Proc.devRef .tc main_v8) = _
  after_results
  funext i
  obtain ⟨b, o, rfl⟩ : ∃ (b : Fin 16) (o : Fin 2048), i = ix2 b o := ⟨i 0, i 1, eq_ix2 i⟩
  refine (shapeCast_apply _ shapeCasts_S16x1x2048_S16x2048 (ix2 b o) (ix3 b (0 : Fin 1) o) ?_).trans
    ((congrFun hw (ix3 b (0 : Fin 1) o)).trans rfl)
  rw [Shape.rowMajor_val_three, Shape.rowMajor_val_two]
  show (b.val * 1 + 0) * 2048 + o.val = b.val * 2048 + o.val
  omega

/-- Every weakly fair execution of the kernel program ends with the result at the network of the arguments, and the
    arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c))),
      ((h c).2 main_arg13 (Pipeline.mem_restRefs_of main_arg13 (by decide) (by decide))).trans (W_main_arg13 m (dats m) c),
      ((h c).1 14).trans (((dats m 0 c).arrAt_in 14 rfl _).trans ((A_eq m c 14).trans (V_main_arg14 m c)))⟩)
    (run_main m ρ)

end Cert.KernelIdeal.Arrays

end
-- ==== Proof.RefNet.lean ====
/-
  The reference program's result, read at an index, is the specification's network of the batch element's points.

  The reference is read one stage of the network at a time, each stage at explicit coordinates: a linear layer's
  matrix product is the sum over the contracted coordinate of input times weight row, its bias is read through two
  broadcasts, and the rectifier is the maximum with the zero word, which is the extended real 0. The pairwise stage
  reads the two partial products through broadcasts that repeat one along the second point's axis and the other along
  the first point's axis. The sum over the two point axes of the [16, 64, 64, 512] array is a sum over the indices whose
  outer coordinates are fixed; those indices are exactly the pairs (i, j) of middle coordinates, so it is the double sum.
-/
import proofs.«157928_j21328807592435_1_alg».proof.Proof.Gen.ReferenceIdeal.Read
import proofs.«157928_j21328807592435_1_alg».proof.Proof.Spec

noncomputable section

namespace Cert.ReferenceIdeal.Net

open Cert.ReferenceIdeal Idealize.ShloMosaic Idealize.ShloMosaic.ValueIdx

/-! ## Two facts that mention no stage of the program -/

/-- The maximum with the zero word is the rectifier: the word of all zero bits is the extended real 0. -/
theorem max_zeroWord (v : EReal) :
    FloatOps.maximumf (F := Ideal) (φ := .f32) v (FloatOps.ofBits (F := Ideal) .f32 0x00000000#32) = PairPool.relu v := by
  show max v (Ideal.ofBits .f32 0x00000000#32) = max v 0
  rw [Ideal.ofBits_zero_f32]

/-- Dropping the two middle coordinates of a [16, 64, 64, 512] index leaves (b, o) exactly when its outer coordinates
    are b and o. -/
theorem drop_eq_iff (h : S16x64x64x512.ReducesTo [1, 2] S16x512) (i : S16x64x64x512.Idx) (b : Fin 16) (o : Fin 512) :
    h.drop i = ix2 b o ↔ i 0 = b ∧ i 3 = o := by
  have h0 : (h.drop i 0 : Nat) = i 0 := Shape.ReducesTo.drop_apply_val_of_eq h i 0 0
  have h1 : (h.drop i 1 : Nat) = i 3 := Shape.ReducesTo.drop_apply_val_of_eq h i 1 3
  constructor
  · intro e
    rw [e] at h0 h1
    exact ⟨Fin.ext h0.symm, Fin.ext h1.symm⟩
  · rintro ⟨e0, e1⟩
    funext a
    match a with
    | ⟨0, _⟩ => exact Fin.ext (h0.trans (congrArg Fin.val e0))
    | ⟨1, _⟩ => exact Fin.ext (h1.trans (congrArg Fin.val e1))

/-- The indices that drop to (b, o) are the (b, i, j, o), one for each pair (i, j) of middle coordinates, so a sum
    over them is the sum over i of the sum over j. -/
theorem sum_filter_drop_pairs (h : S16x64x64x512.ReducesTo [1, 2] S16x512) (x : S16x64x64x512.Idx → EReal)
    (b : Fin 16) (o : Fin 512) [DecidablePred fun i : S16x64x64x512.Idx => h.drop i = ix2 b o] :
    ∑ i ∈ Finset.univ.filter (fun i => h.drop i = ix2 b o), x i = ∑ i : Fin 64, ∑ j : Fin 64, x (ix4 b i j o) := by
  have back : ∀ i : S16x64x64x512.Idx, h.drop i = ix2 b o → ix4 b (i 1) (i 2) o = i := fun i e => by
    obtain ⟨e0, e1⟩ := (drop_eq_iff h i b o).1 e
    rw [← e0, ← e1]
    exact (eq_ix4 i).symm
  rw [← Fintype.sum_prod_type' (f := fun i j => x (ix4 b i j o))]
  exact Finset.sum_nbij' (fun i => (i 1, i 2)) (fun p => ix4 b p.1 p.2 o) (fun _ _ => Finset.mem_univ _)
    (fun p _ => Finset.mem_filter.2 ⟨Finset.mem_univ _, (drop_eq_iff h _ b o).2 ⟨rfl, rfl⟩⟩)
    (fun i hi => back i (Finset.mem_filter.1 hi).2) (fun _ _ => rfl)
    (fun i hi => (congrArg x (back i (Finset.mem_filter.1 hi).2)).symm)

/-- The host's sum over the two middle axes, from an initial value that reads 0, at (b, o): the double sum. -/
theorem reduceAdd_pairs (h : S16x64x64x512.ReducesTo [1, 2] S16x512) (hu : 0 < S_.numel)
    (x : FVec Ideal S16x64x64x512 .f32) (init : S_.Idx → Ideal .f32) (h0 : ∀ u, init u = 0) (b : Fin 16) (o : Fin 512) :
    Host.reduceAdd (F := Ideal) x init h hu (ix2 b o) = ∑ i : Fin 64, ∑ j : Fin 64, x (ix4 b i j o) := by
  show Ideal.hostReduceAdd h x (init (Shape.Idx.first hu)) (ix2 b o) = _
  unfold Ideal.hostReduceAdd
  rw [h0, zero_add]
  exact @sum_filter_drop_pairs h x b o _

/-! ## The stages of the network -/

section Stages

variable (X : FVec Ideal S16x64x16 .f32) (a1 : FVec Ideal S128x3 .f32) (a2 : FVec Ideal S128 .f32)
    (a3 : FVec Ideal S128x13 .f32) (a4 : FVec Ideal S128 .f32) (a5 : FVec Ideal S256x128 .f32) (a6 : FVec Ideal S256 .f32)
    (a7 : FVec Ideal S512x256 .f32) (a8 : FVec Ideal S512 .f32) (a9 : FVec Ideal S1024x512 .f32) (a10 : FVec Ideal S1024 .f32)
    (a11 : FVec Ideal S512x2048 .f32) (a12 : FVec Ideal S512 .f32) (a13 : FVec Ideal S2048x512 .f32) (a14 : FVec Ideal S2048 .f32)

local notation "W" => Cert.PairPool.weightsOf a1 a2 a3 a4 a5 a6 a7 a8 a9 a10 a11 a12 a13 a14

/-- The rectified linear layer on a point's first 3 coordinates. -/
theorem first3_eq (b : Fin 16) (n : Fin 64) (o : Fin 128) :
    Read.val_main_v6 (F := Ideal) X a1 a2 (ix3 b n o)
      = PairPool.relu (PairPool.lin (fun c : Fin 3 => X (ix3 b n (⟨c.val, by have := c.isLt; omega⟩ : Fin 16)))
          (fun c => a1 (ix2 o c)) (a2 (ix1 o))) := by
  have hx : ∀ k : Fin 3, Read.val_main_v0 (F := Ideal) X (Read.lidx_main_v2 (ix3 b n o) k)
      = X (ix3 b n (⟨k.val, by have := k.isLt; omega⟩ : Fin 16)) := fun k => by
    rw [Read.val_main_v0_apply]
    exact congrArg X (by funext a; match a with | ⟨0, _⟩ => rfl | ⟨1, _⟩ => rfl | ⟨2, _⟩ => rfl)
  have hw : ∀ k : Fin 3, a1 (Read.ridx_main_v2 (ix3 b n o) k) = a1 (ix2 o k) := fun k =>
    congrArg a1 (by funext a; match a with | ⟨0, _⟩ => rfl | ⟨1, _⟩ => rfl)
  have hb : Read.idx_main_v3 (Read.idx_main_v4 (ix3 b n o)) = ix1 o := by
    funext a; match a with | ⟨0, _⟩ => rfl
  rw [Read.val_main_v6_apply, Read.val_main_v5_apply, Read.val_main_v2_apply, Read.val_main_v4_apply,
    Read.val_main_v3_apply, hb, Read.val_main_call0_v0_apply, Read.val_main_call0_cst_apply]
  simp only [hx, hw]
  exact max_zeroWord _

/-- The rectified linear layer on a point's last 13 coordinates. -/
theorem last13_eq (b : Fin 16) (n : Fin 64) (o : Fin 128) :
    Read.val_main_v11 (F := Ideal) X a3 a4 (ix3 b n o)
      = PairPool.relu (PairPool.lin (fun c : Fin 13 => X (ix3 b n (⟨3 + c.val, by have := c.isLt; omega⟩ : Fin 16)))
          (fun c => a3 (ix2 o c)) (a4 (ix1 o))) := by
  have hx : ∀ k : Fin 13, Read.val_main_v1 (F := Ideal) X (Read.lidx_main_v7 (ix3 b n o) k)
      = X (ix3 b n (⟨3 + k.val, by have := k.isLt; omega⟩ : Fin 16)) := fun k => by
    rw [Read.val_main_v1_apply]
    exact congrArg X (by funext a; match a with | ⟨0, _⟩ => rfl | ⟨1, _⟩ => rfl | ⟨2, _⟩ => rfl)
  have hw : ∀ k : Fin 13, a3 (Read.ridx_main_v7 (ix3 b n o) k) = a3 (ix2 o k) := fun k =>
    congrArg a3 (by funext a; match a with | ⟨0, _⟩ => rfl | ⟨1, _⟩ => rfl)
  have hb : Read.idx_main_v8 (Read.idx_main_v9 (ix3 b n o)) = ix1 o := by
    funext a; match a with | ⟨0, _⟩ => rfl
  rw [Read.val_main_v11_apply, Read.val_main_v10_apply, Read.val_main_v7_apply, Read.val_main_v9_apply,
    Read.val_main_v8_apply, hb, Read.val_main_call1_v0_apply, Read.val_main_call1_cst_apply]
  simp only [hx, hw]
  exact max_zeroWord _

/-- A point's embedding: the two rectified layers added. -/
theorem embed_eq (b : Fin 16) (n : Fin 64) (o : Fin 128) :
    Read.val_main_v12 (F := Ideal) X a1 a2 a3 a4 (ix3 b n o) = PairPool.embed W (fun k => X (ix3 b n k)) o := by
  rw [Read.val_main_v12_apply, first3_eq, last13_eq]
  rfl

/-- The first refining layer, 128 → 256. -/
theorem hidden1_eq (b : Fin 16) (n : Fin 64) (o : Fin 256) :
    Read.val_main_v17 (F := Ideal) X a1 a2 a3 a4 a5 a6 (ix3 b n o) = PairPool.hidden1 W (fun k => X (ix3 b n k)) o := by
  have hx : ∀ k : Fin 128, Read.val_main_v12 (F := Ideal) X a1 a2 a3 a4 (Read.lidx_main_v13 (ix3 b n o) k)
      = PairPool.embed W (fun k => X (ix3 b n k)) k := fun k =>
    (congrArg (Read.val_main_v12 (F := Ideal) X a1 a2 a3 a4)
      (by funext a; match a with | ⟨0, _⟩ => rfl | ⟨1, _⟩ => rfl | ⟨2, _⟩ => rfl)).trans (embed_eq X a1 a2 a3 a4 a5 a6 a7 a8 a9 a10 a11 a12 a13 a14 b n k)
  have hw : ∀ k : Fin 128, a5 (Read.ridx_main_v13 (ix3 b n o) k) = a5 (ix2 o k) := fun k =>
    congrArg a5 (by funext a; match a with | ⟨0, _⟩ => rfl | ⟨1, _⟩ => rfl)
  have hb : Read.idx_main_v14 (Read.idx_main_v15 (ix3 b n o)) = ix1 o := by
    funext a; match a with | ⟨0, _⟩ => rfl
  rw [Read.val_main_v17_apply, Read.val_main_v16_apply, Read.val_main_v13_apply, Read.val_main_v15_apply,
    Read.val_main_v14_apply, hb, Read.val_main_call2_v0_apply, Read.val_main_call2_cst_apply]
  simp only [hx, hw]
  exact max_zeroWord _

/-- The second refining layer, 256 → 512. -/
theorem layer2_eq (b : Fin 16) (n : Fin 64) (o : Fin 512) :
    Read.val_main_v22 (F := Ideal) X a1 a2 a3 a4 a5 a6 a7 a8 (ix3 b n o)
      = PairPool.layer2 W (PairPool.hidden1 W (fun k => X (ix3 b n k))) o := by
  have hx : ∀ k : Fin 256, Read.val_main_v17 (F := Ideal) X a1 a2 a3 a4 a5 a6 (Read.lidx_main_v18 (ix3 b n o) k)
      = PairPool.hidden1 W (fun k => X (ix3 b n k)) k := fun k =>
    (congrArg (Read.val_main_v17 (F := Ideal) X a1 a2 a3 a4 a5 a6)
      (by funext a; match a with | ⟨0, _⟩ => rfl | ⟨1, _⟩ => rfl | ⟨2, _⟩ => rfl)).trans (hidden1_eq X a1 a2 a3 a4 a5 a6 a7 a8 a9 a10 a11 a12 a13 a14 b n k)
  have hw : ∀ k : Fin 256, a7 (Read.ridx_main_v18 (ix3 b n o) k) = a7 (ix2 o k) := fun k =>
    congrArg a7 (by funext a; match a with | ⟨0, _⟩ => rfl | ⟨1, _⟩ => rfl)
  have hb : Read.idx_main_v19 (Read.idx_main_v20 (ix3 b n o)) = ix1 o := by
    funext a; match a with | ⟨0, _⟩ => rfl
  rw [Read.val_main_v22_apply, Read.val_main_v21_apply, Read.val_main_v18_apply, Read.val_main_v20_apply,
    Read.val_main_v19_apply, hb, Read.val_main_call3_v0_apply, Read.val_main_call3_cst_apply]
  simp only [hx, hw]
  exact max_zeroWord _

/-- The third refining layer, 512 → 1024: a point's features. -/
theorem feat_eq (b : Fin 16) (n : Fin 64) (o : Fin 1024) :
    Read.val_main_v27 (F := Ideal) X a1 a2 a3 a4 a5 a6 a7 a8 a9 a10 (ix3 b n o)
      = PairPool.feat W (fun k => X (ix3 b n k)) o := by
  have hx : ∀ k : Fin 512, Read.val_main_v22 (F := Ideal) X a1 a2 a3 a4 a5 a6 a7 a8 (Read.lidx_main_v23 (ix3 b n o) k)
      = PairPool.layer2 W (PairPool.hidden1 W (fun k => X (ix3 b n k))) k := fun k =>
    (congrArg (Read.val_main_v22 (F := Ideal) X a1 a2 a3 a4 a5 a6 a7 a8)
      (by funext a; match a with | ⟨0, _⟩ => rfl | ⟨1, _⟩ => rfl | ⟨2, _⟩ => rfl)).trans (layer2_eq X a1 a2 a3 a4 a5 a6 a7 a8 a9 a10 a11 a12 a13 a14 b n k)
  have hw : ∀ k : Fin 512, a9 (Read.ridx_main_v23 (ix3 b n o) k) = a9 (ix2 o k) := fun k =>
    congrArg a9 (by funext a; match a with | ⟨0, _⟩ => rfl | ⟨1, _⟩ => rfl)
  have hb : Read.idx_main_v24 (Read.idx_main_v25 (ix3 b n o)) = ix1 o := by
    funext a; match a with | ⟨0, _⟩ => rfl
  rw [Read.val_main_v27_apply, Read.val_main_v26_apply, Read.val_main_v23_apply, Read.val_main_v25_apply,
    Read.val_main_v24_apply, hb, Read.val_main_call4_v0_apply, Read.val_main_call4_cst_apply]
  simp only [hx, hw]
  exact max_zeroWord _

/-- The pairwise weight's first half applied to a point's features. -/
theorem partA_eq (b : Fin 16) (n : Fin 64) (o : Fin 512) :
    Read.val_main_v30 (F := Ideal) X a1 a2 a3 a4 a5 a6 a7 a8 a9 a10 a11 (ix3 b n o)
      = PairPool.partA W (PairPool.feat W (fun k => X (ix3 b n k))) o := by
  have hx : ∀ k : Fin 1024, Read.val_main_v27 (F := Ideal) X a1 a2 a3 a4 a5 a6 a7 a8 a9 a10 (Read.lidx_main_v30 (ix3 b n o) k)
      = PairPool.feat W (fun k => X (ix3 b n k)) k := fun k =>
    (congrArg (Read.val_main_v27 (F := Ideal) X a1 a2 a3 a4 a5 a6 a7 a8 a9 a10)
      (by funext a; match a with | ⟨0, _⟩ => rfl | ⟨1, _⟩ => rfl | ⟨2, _⟩ => rfl)).trans (feat_eq X a1 a2 a3 a4 a5 a6 a7 a8 a9 a10 a11 a12 a13 a14 b n k)
  have hw : ∀ k : Fin 1024, Read.val_main_v28 (F := Ideal) a11 (Read.ridx_main_v30 (ix3 b n o) k)
      = a11 (ix2 o (⟨k.val, by have := k.isLt; omega⟩ : Fin 2048)) := fun k => by
    rw [Read.val_main_v28_apply]
    exact congrArg a11 (by funext a; match a with | ⟨0, _⟩ => rfl | ⟨1, _⟩ => rfl)
  rw [Read.val_main_v30_apply]
  simp only [hx, hw]
  rfl

/-- The pairwise weight's second half applied to a point's features. -/
theorem partB_eq (b : Fin 16) (n : Fin 64) (o : Fin 512) :
    Read.val_main_v31 (F := Ideal) X a1 a2 a3 a4 a5 a6 a7 a8 a9 a10 a11 (ix3 b n o)
      = PairPool.partB W (PairPool.feat W (fun k => X (ix3 b n k))) o := by
  have hx : ∀ k : Fin 1024, Read.val_main_v27 (F := Ideal) X a1 a2 a3 a4 a5 a6 a7 a8 a9 a10 (Read.lidx_main_v31 (ix3 b n o) k)
      = PairPool.feat W (fun k => X (ix3 b n k)) k := fun k =>
    (congrArg (Read.val_main_v27 (F := Ideal) X a1 a2 a3 a4 a5 a6 a7 a8 a9 a10)
      (by funext a; match a with | ⟨0, _⟩ => rfl | ⟨1, _⟩ => rfl | ⟨2, _⟩ => rfl)).trans (feat_eq X a1 a2 a3 a4 a5 a6 a7 a8 a9 a10 a11 a12 a13 a14 b n k)
  have hw : ∀ k : Fin 1024, Read.val_main_v29 (F := Ideal) a11 (Read.ridx_main_v31 (ix3 b n o) k)
      = a11 (ix2 o (⟨1024 + k.val, by have := k.isLt; omega⟩ : Fin 2048)) := fun k => by
    rw [Read.val_main_v29_apply]
    exact congrArg a11 (by funext a; match a with | ⟨0, _⟩ => rfl | ⟨1, _⟩ => rfl)
  rw [Read.val_main_v31_apply]
  simp only [hx, hw]
  rfl

/-- The rectified pairwise activation of the ordered pair (n, m) of points: the second half's product is repeated
    along the second point's axis, the first half's along the first point's axis, and the bias along both. -/
theorem pairAct_eq (b : Fin 16) (n m : Fin 64) (o : Fin 512) :
    Read.val_main_v40 (F := Ideal) X a1 a2 a3 a4 a5 a6 a7 a8 a9 a10 a11 a12 (ix4 b n m o)
      = PairPool.pairAct W (PairPool.feat W (fun k => X (ix3 b n k))) (PairPool.feat W (fun k => X (ix3 b m k))) o := by
  have h1 : Read.idx_main_v32 (Read.idx_main_v34 (ix4 b n m o)) = ix3 b n o := by
    funext a; match a with | ⟨0, _⟩ => rfl | ⟨1, _⟩ => rfl | ⟨2, _⟩ => rfl
  have h2 : Read.idx_main_v33 (Read.idx_main_v35 (ix4 b n m o)) = ix3 b m o := by
    funext a; match a with | ⟨0, _⟩ => rfl | ⟨1, _⟩ => rfl | ⟨2, _⟩ => rfl
  have h3 : Read.idx_main_v37 (Read.idx_main_v38 (ix4 b n m o)) = ix1 o := by
    funext a; match a with | ⟨0, _⟩ => rfl
  rw [Read.val_main_v40_apply, Read.val_main_v39_apply, Read.val_main_v36_apply, Read.val_main_v34_apply,
    Read.val_main_v32_apply, h1, Read.val_main_v35_apply, Read.val_main_v33_apply, h2, Read.val_main_v38_apply,
    Read.val_main_v37_apply, h3, Read.val_main_call5_v0_apply, Read.val_main_call5_cst_apply, partB_eq X a1 a2 a3 a4 a5 a6 a7 a8 a9 a10 a11 a12 a13 a14,
    partA_eq X a1 a2 a3 a4 a5 a6 a7 a8 a9 a10 a11 a12 a13 a14]
  exact max_zeroWord _

/-- The activations summed over all ordered pairs of the batch element's 64 points. -/
theorem pairSum_eq (b : Fin 16) (o : Fin 512) :
    Read.val_main_v41 (F := Ideal) X a1 a2 a3 a4 a5 a6 a7 a8 a9 a10 a11 a12 (ix2 b o)
      = PairPool.pairSum W (fun n => PairPool.feat W (fun k => X (ix3 b n k))) o := by
  unfold Read.val_main_v41
  rw [reduceAdd_pairs _ _ _ _ (fun u => (Read.val_main_cst_apply (F := Ideal) u).trans Ideal.ofBits_zero_f32)]
  simp only [pairAct_eq X a1 a2 a3 a4 a5 a6 a7 a8 a9 a10 a11 a12 a13 a14]
  rfl

/-- The sum divided by the word of 4096. -/
theorem pooled_eq (b : Fin 16) (o : Fin 512) :
    Read.val_main_v43 (F := Ideal) X a1 a2 a3 a4 a5 a6 a7 a8 a9 a10 a11 a12 (ix2 b o)
      = PairPool.pooled W (fun n => PairPool.feat W (fun k => X (ix3 b n k))) o := by
  rw [Read.val_main_v43_apply, pairSum_eq X a1 a2 a3 a4 a5 a6 a7 a8 a9 a10 a11 a12 a13 a14, Read.val_main_v42_apply, Read.val_main_cst_0_apply]
  rfl

end Stages

/-- Entry (b, o) of the reference's result is the network's output o on the 64 points of batch element b. -/
theorem ref_out (X : FVec Ideal S16x64x16 .f32) (a1 : FVec Ideal S128x3 .f32) (a2 : FVec Ideal S128 .f32)
    (a3 : FVec Ideal S128x13 .f32) (a4 : FVec Ideal S128 .f32) (a5 : FVec Ideal S256x128 .f32) (a6 : FVec Ideal S256 .f32)
    (a7 : FVec Ideal S512x256 .f32) (a8 : FVec Ideal S512 .f32) (a9 : FVec Ideal S1024x512 .f32) (a10 : FVec Ideal S1024 .f32)
    (a11 : FVec Ideal S512x2048 .f32) (a12 : FVec Ideal S512 .f32) (a13 : FVec Ideal S2048x512 .f32) (a14 : FVec Ideal S2048 .f32)
    (b : Fin 16) (o : Fin 2048) :
    Cert.ReferenceIdeal.Read.val_main_v47 (F := Ideal) X a1 a2 a3 a4 a5 a6 a7 a8 a9 a10 a11 a12 a13 a14 (ix2 b o)
      = Cert.PairPool.out (Cert.PairPool.weightsOf a1 a2 a3 a4 a5 a6 a7 a8 a9 a10 a11 a12 a13 a14)
          (fun n k => X (ix3 b n k)) o := by
  have hx : ∀ k : Fin 512, Read.val_main_v43 (F := Ideal) X a1 a2 a3 a4 a5 a6 a7 a8 a9 a10 a11 a12 (Read.lidx_main_v44 (ix2 b o) k)
      = PairPool.pooled (PairPool.weightsOf a1 a2 a3 a4 a5 a6 a7 a8 a9 a10 a11 a12 a13 a14)
          (fun n => PairPool.feat (PairPool.weightsOf a1 a2 a3 a4 a5 a6 a7 a8 a9 a10 a11 a12 a13 a14) (fun k => X (ix3 b n k))) k := fun k =>
    (congrArg (Read.val_main_v43 (F := Ideal) X a1 a2 a3 a4 a5 a6 a7 a8 a9 a10 a11 a12)
      (by funext a; match a with | ⟨0, _⟩ => rfl | ⟨1, _⟩ => rfl)).trans (pooled_eq X a1 a2 a3 a4 a5 a6 a7 a8 a9 a10 a11 a12 a13 a14 b k)
  have hw : ∀ k : Fin 512, a13 (Read.ridx_main_v44 (ix2 b o) k) = a13 (ix2 o k) := fun k =>
    congrArg a13 (by funext a; match a with | ⟨0, _⟩ => rfl | ⟨1, _⟩ => rfl)
  have hb : Read.idx_main_v45 (Read.idx_main_v46 (ix2 b o)) = ix1 o := by
    funext a; match a with | ⟨0, _⟩ => rfl
  rw [Read.val_main_v47_apply, Read.val_main_v44_apply, Read.val_main_v46_apply, Read.val_main_v45_apply, hb]
  simp only [hx, hw]
  rfl

end Cert.ReferenceIdeal.Net

end
-- ==== Proof.lean ====
/-
  The certificate of a pairwise-pooling network: per batch element, 64 points of 16 coordinates are embedded by two
  rectified linear layers on their first 3 and last 13 coordinates, refined by three more to 1024 features, combined
  over all ordered pairs by a linear layer on the concatenated features with a rectifier, averaged over the 4096
  pairs, and sent through a last linear layer.

  The kernel computes one batch element per grid point from bf16 copies of the weights, sums the pairwise activations
  first over the second point and then over the first, and writes a [16, 1, 2048] array the host reshapes; the
  reference computes all batch elements at once and sums over both points of a pair in one reduction. On the extended
  reals a change of float format is the identity and addition is commutative and associative, so both are the ONE
  function `Cert.PairPool.out` of the arguments (Proof/Spec.lean): the kernel by Proof/KernelNet.lean (one grid point's
  body) and Proof/KernelArrays.lean (the blocks, the cover, the host lines), the reference by Proof/RefNet.lean over its
  generated run. No precondition is used: the two sides agree at every extended-real input.

  The three frames are the generated ones (the reference's is its generated run with the result dropped), and the
  idealization rewrote nothing, so `preserves` has no conjunct.
-/
import proofs.«157928_j21328807592435_1_alg».proof.Defs
import proofs.«157928_j21328807592435_1_alg».proof.Proof.Gen.Kernel
import proofs.«157928_j21328807592435_1_alg».proof.Proof.Gen.Kernel.Frame
import proofs.«157928_j21328807592435_1_alg».proof.Proof.Gen.KernelIdeal
import proofs.«157928_j21328807592435_1_alg».proof.Proof.Gen.KernelIdeal.Frame
import proofs.«157928_j21328807592435_1_alg».proof.Proof.Gen.ReferenceIdeal
import proofs.«157928_j21328807592435_1_alg».proof.Proof.Gen.Pre_finite_inputs
import proofs.«157928_j21328807592435_1_alg».proof.Proof.Gen.ReferenceIdeal.Run
import proofs.«157928_j21328807592435_1_alg».proof.Proof.Gen.ReferenceIdeal.Read
import proofs.«157928_j21328807592435_1_alg».proof.Proof.KernelArrays
import proofs.«157928_j21328807592435_1_alg».proof.Proof.RefNet
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with entry (b, o) of the result at the network's output o on batch element b of arguments
    that agree. -/
theorem algebraic : Cert.algebraic_KernelIdeal_ReferenceIdeal := by
  intro m ρ m' ρ' _ hagree
  refine ⟨fun c => Cert.KernelIdeal.Arrays.result m c, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq]
  obtain ⟨h0, h1, h2, h3, h4, h5, h6, h7, h8, h9, h10, h11, h12, h13, h14⟩ := hagree c
  rw [h0, h1, h2, h3, h4, h5, h6, h7, h8, h9, h10, h11, h12, h13, h14]
  refine funext fun i => ?_
  obtain ⟨b, o, rfl⟩ : ∃ (b : Fin 16) (o : Fin 2048), i = ix2 b o := ⟨i 0, i 1, eq_ix2 i⟩
  exact Cert.ReferenceIdeal.Net.ref_out _ _ _ _ _ _ _ _ _ _ _ _ _ _ _ b o

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
